-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S1000000 : Shape := ⟨1, ![1000000]⟩
abbrev S1000000x128 : Shape := ⟨2, ![1000000, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg5 : IVec S1000000 32) (main_arg8 : FVec F S1000000 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg8
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_c_8 : IVec S_ 32 := constantI S_ 32 0#32
  let main_v24 : IVec S1000000 32 := broadcastInDim S1000000 ![] bcast_S_S1000000 main_c_8
  let main_v25 : IVec S1000000 1 := cmpi .sge main_arg5 main_v24
  let main_c_9 : IVec S_ 32 := constantI S_ 32 128#32
  let main_v26 : IVec S1000000 32 := broadcastInDim S1000000 ![] bcast_S_S1000000 main_c_9
  let main_v27 : IVec S1000000 1 := cmpi .slt main_arg5 main_v26
  let main_v28 : IVec S1000000 1 := andi main_v25 main_v27
  let main_c_10 : IVec S_ 1 := constantI S_ 1 1#1
  let main_v29 : IVec S_ 1 := (fun x v => Host.reduce IntOp.andi x v reducesTo_S1000000_S_d0 h_S_) main_v28 main_c_10
  let main_v30 : IVec S_ 1 := andi main_v23 main_v29
  main_v30

def fn {F : FTy → Type} [FloatOps F] (main_arg0 : FVec F S50000x128 .f32) (main_arg1 : FVec F S50000 .f32) (main_arg2 : FVec F S1000000 .f32) (main_arg3 : IVec S1000000 32) (main_arg4 : IVec S1000000 32) (main_arg5 : IVec S1000000 32) (main_arg6 : IVec S1000000 32) (main_arg7 : FVec F S1000000 .f32) (main_arg8 : FVec F S1000000 .f32) (main_arg9 : IVec S1000000x128 1) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg7
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg5 main_arg8 main_v13 main_v16
-- ==== Kernel.lean ====
abbrev S50000x128 : Shape := ⟨2, ![50000, 128]⟩
abbrev S50000 : Shape := ⟨1, ![50000]⟩
abbrev S1000000 : Shape := ⟨1, ![1000000]⟩
abbrev S1000000x128 : Shape := ⟨2, ![1000000, 128]⟩
abbrev S_ : Shape := ⟨0, ![]⟩
abbrev S1000000x1 : Shape := ⟨2, ![1000000, 1]⟩
abbrev S1x1 : Shape := ⟨2, ![1, 1]⟩
abbrev S4000x128 : Shape := ⟨2, ![4000, 128]⟩
abbrev S4000x1 : Shape := ⟨2, ![4000, 1]⟩
abbrev S4000 : Shape := ⟨1, ![4000]⟩
abbrev S1 : Shape := ⟨1, ![1]⟩

abbrev nBuf : Space → Nat
  | .hbm => 78
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S1000000, .f32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S1000000, .f32⟩
  | .hbm, ⟨9, _⟩ => ⟨S1000000x128, .i1⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000, .f32⟩
  | .hbm, ⟨55, _⟩ => ⟨S1000000x128, .f32⟩
  | .hbm, ⟨56, _⟩ => ⟨S1000000, .f32⟩
  | .hbm, ⟨57, _⟩ => ⟨S1000000x1, .f32⟩
  | .hbm, ⟨58, _⟩ => ⟨S1000000x128, .f32⟩
  | .hbm, ⟨59, _⟩ => ⟨S1000000x128, .f32⟩
  | .hbm, ⟨60, _⟩ => ⟨S1000000, .f32⟩
  | .hbm, ⟨61, _⟩ => ⟨S1000000x1, .f32⟩
  | .hbm, ⟨62, _⟩ => ⟨S1000000x1, .i32⟩
  | .hbm, ⟨63, _⟩ => ⟨S1000000x1, .f32⟩
  | .hbm, ⟨64, _⟩ => ⟨S1000000x1, .f32⟩
  | .hbm, ⟨65, _⟩ => ⟨S1000000x128, .i32⟩
  | .hbm, ⟨66, _⟩ => ⟨S1x1, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1000000, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x1, .i32⟩
  | .local _ .vmem, ⟨5, _⟩ => ⟨S4000x1, .i32⟩
  | .local _ .vmem, ⟨6, _⟩ => ⟨S4000x128, .i32⟩
  | .local _ .vmem, ⟨7, _⟩ => ⟨S4000x128, .i32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_v0 : Ref sig .tc := ⟨.hbm, 68, rfl⟩
abbrev main_call0_cst : Ref sig .tc := ⟨.hbm, 69, rfl⟩
abbrev main_call0_v1 : Ref sig .tc := ⟨.hbm, 70, rfl⟩
abbrev main_v48 : Ref sig .tc := ⟨.hbm, 71, rfl⟩
abbrev main_v49 : Ref sig .tc := ⟨.hbm, 72, rfl⟩
abbrev main_call1_v0 : Ref sig .tc := ⟨.hbm, 73, rfl⟩
abbrev main_call1_cst : Ref sig .tc := ⟨.hbm, 74, rfl⟩
abbrev main_call1_v1 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  shapeCasts_S1000000_S1000000x1 : S1000000.ShapeCasts S1000000x1
  natLt_1_32 : 1 < 32
  inb_S1x1_S1x1_0_0 : ∀ a, (![0, 0] : Fin 2 → Nat) a + S1x1.size a ≤ S1x1.size a
  h_S1x1 : 0 < S1x1.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x128_d1_w32 : S4000x128.Iotas .tc 32 [1]
  broadcasts_S4000x1_S4000x128 : S4000x1.Broadcasts S4000x128
  reduces_S4000x128_S4000 : S4000x128.Reduces [1] S4000
  shapeCasts_S4000_S4000x1 : S4000.ShapeCasts S4000x1
  reduces_S4000x1_S1 : S4000x1.Reduces [0] S1
  shapeCasts_S1_S1x1 : S1.ShapeCasts S1x1
  shapeCasts_S1x1_S1x1 : S1x1.ShapeCasts S1x1
  shapeCasts_S1x1_S_ : S1x1.ShapeCasts S_
  reducesTo_S50000_S_d0 : S50000.ReducesTo [0] S_
  h_S_ : 0 < S_.numel
  reducesTo_S1000000_S_d0 : S1000000.ReducesTo [0] S_
  gather_S50000x128_S1000000x1_S1000000x128_1_0_n_n_0_1_1128_wf : GatherDims.WF S50000x128 S1000000x1 S1000000x128 [1] [0] [] [0] [] 1 ![1, 128]
  gather_S50000_S1000000x1_S1000000_n_0_n_n_0_1_1_wf : GatherDims.WF S50000 S1000000x1 S1000000 [] [0] [] [0] [] 1 ![1]
  gather_S1000000_S1000000x1_S1000000_n_0_n_n_0_1_1_wf : GatherDims.WF S1000000 S1000000x1 S1000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S1000000x128.size a
  hwx0_0 : ∀ i : grid0.Coords, EltTy.bits .f32 = 32 ∨ (Rect.block (s := S1000000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .f32 = 32 ∨ (Rect.block (s := S1000000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1000000x1.size a
  hwx0_2 : ∀ i : grid0.Coords, EltTy.bits .i32 = 32 ∨ (Rect.block (s := S1000000x1) S4000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S1000000x128.size a
  hwx0_3 : ∀ i : grid0.Coords, EltTy.bits .i32 = 32 ∨ (Rect.block (s := S1000000x128) S4000x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S1000000x1.size a
  hwx0_4 : ∀ i : grid0.Coords, EltTy.bits .f32 = 32 ∨ (Rect.block (s := S1000000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S1000000x1.size a
  hwx0_5 : ∀ i : grid0.Coords, EltTy.bits .f32 = 32 ∨ (Rect.block (s := S1000000x1) S4000x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf

abbrev win0_0 : Pipeline.Window sig grid0 :=
  Pipeline.Window.ofSpec (Memref.whole main_v39) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44) S4000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000 : Shape := ⟨1, ![50000]⟩
abbrev S1000000 : Shape := ⟨1, ![1000000]⟩
abbrev S1000000x128 : Shape := ⟨2, ![1000000, 128]⟩
abbrev S_ : Shape := ⟨0, ![]⟩
abbrev S1000000x1 : Shape := ⟨2, ![1000000, 1]⟩
abbrev S1000000x2 : Shape := ⟨2, ![1000000, 2]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000, .f32⟩
  | .hbm, ⟨2, _⟩ => ⟨S1000000, .f32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S1000000, .f32⟩
  | .hbm, ⟨9, _⟩ => ⟨S1000000x128, .i1⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000, .f32⟩
  | .hbm, ⟨28, _⟩ => ⟨S1000000x1, .f32⟩
  | .hbm, ⟨29, _⟩ => ⟨S1000000x128, .f32⟩
  | .hbm, ⟨30, _⟩ => ⟨S1000000x128, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x128, .f32⟩
  | .hbm, ⟨40, _⟩ => ⟨S1000000x128, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000, .f32⟩
  | .hbm, ⟨50, _⟩ => ⟨S1000000x1, .f32⟩
  | .hbm, ⟨51, _⟩ => ⟨S1000000x128, .f32⟩
  | .hbm, ⟨52, _⟩ => ⟨S1000000x128, .f32⟩
  | .hbm, ⟨53, _⟩ => ⟨S_, .i32⟩
  | .hbm, ⟨54, _⟩ => ⟨S1000000, .i32⟩
  | .hbm, ⟨55, _⟩ => ⟨S1000000, .i1⟩
  | .hbm, ⟨56, _⟩ => ⟨S_, .i32⟩
  | .hbm, ⟨57, _⟩ => ⟨S1000000, .i32⟩
  | .hbm, ⟨58, _⟩ => ⟨S1000000, .i32⟩
  | .hbm, ⟨59, _⟩ => ⟨S1000000, .i32⟩
  | .hbm, ⟨60, _⟩ => ⟨S1000000x1, .i32⟩
  | .hbm, ⟨61, _⟩ => ⟨S1000000, .f32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1000000, .f32⟩
  | .hbm, ⟨71, _⟩ => ⟨S1000000, .f32⟩
  | .hbm, ⟨72, _⟩ => ⟨S1000000, .i32⟩
  | .hbm, ⟨73, _⟩ => ⟨S1000000, .f32⟩
  | .hbm, ⟨74, _⟩ => ⟨S_, .i32⟩
  | .hbm, ⟨75, _⟩ => ⟨S1000000, .i32⟩
  | .hbm, ⟨76, _⟩ => ⟨S1000000, .i1⟩
  | .hbm, ⟨77, _⟩ => ⟨S_, .i32⟩
  | .hbm, ⟨78, _⟩ => ⟨S1000000, .i32⟩
  | .hbm, ⟨79, _⟩ => ⟨S1000000, .i32⟩
  | .hbm, ⟨80, _⟩ => ⟨S1000000, .i32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x1, .i32⟩
  | .hbm, ⟨90, _⟩ => ⟨S1000000x2, .i32⟩
  | .hbm, ⟨91, _⟩ => ⟨S1000000x128, .f32⟩
  | .hbm, ⟨92, _⟩ => ⟨S_, .f32⟩
  | .hbm, ⟨93, _⟩ => ⟨S1000000x128, .f32⟩
  | .hbm, ⟨94, _⟩ => ⟨S1000000x128, .f32⟩
  | .hbm, ⟨95, _⟩ => ⟨S1000000x128, .f32⟩
  | .hbm, ⟨96, _⟩ => ⟨S_, .f32⟩
  | .hbm, ⟨97, _⟩ => ⟨S1000000, .f32⟩
  | .hbm, ⟨98, _⟩ => ⟨S1000000, .f32⟩
  | .hbm, ⟨99, _⟩ => ⟨S_, .f32⟩
  | .hbm, ⟨100, _⟩ => ⟨S1000000, .f32⟩
  | .hbm, ⟨101, _⟩ => ⟨S1000000, .i1⟩
  | .hbm, ⟨102, _⟩ => ⟨S_, .f32⟩
  | .hbm, ⟨103, _⟩ => ⟨S_, .f32⟩
  | .hbm, ⟨104, _⟩ => ⟨S1000000, .f32⟩
  | .hbm, ⟨105, _⟩ => ⟨S1000000, .f32⟩
  | .hbm, ⟨106, _⟩ => ⟨S1000000, .f32⟩
  | .hbm, ⟨107, _⟩ => ⟨S_, .f32⟩
  | .hbm, ⟨108, _⟩ => ⟨S_, .f32⟩
  | .hbm, ⟨109, _⟩ => ⟨S1000000, .f32⟩
  | .hbm, ⟨110, _⟩ => ⟨S1000000, .f32⟩
  | .hbm, ⟨111, _⟩ => ⟨S1000000, .f32⟩
  | .hbm, ⟨112, _⟩ => ⟨S_, .f32⟩
  | .hbm, ⟨113, _⟩ => ⟨S_, .f32⟩
  | .hbm, ⟨114, _⟩ => ⟨S50000, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S1000000, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_c_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst : Ref sig .tc := ⟨.hbm, 92, rfl⟩
abbrev main_call0_v0 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_call1_v0 : Ref sig .tc := ⟨.hbm, 103, rfl⟩
abbrev main_call1_v1 : Ref sig .tc := ⟨.hbm, 104, rfl⟩
abbrev main_v72 : Ref sig .tc := ⟨.hbm, 105, rfl⟩
abbrev main_v73 : Ref sig .tc := ⟨.hbm, 106, rfl⟩
abbrev main_cst_18 : Ref sig .tc := ⟨.hbm, 107, rfl⟩
abbrev main_call2_v0 : Ref sig .tc := ⟨.hbm, 108, rfl⟩
abbrev main_call2_v1 : Ref sig .tc := ⟨.hbm, 109, rfl⟩
abbrev main_v74 : Ref sig .tc := ⟨.hbm, 110, rfl⟩
abbrev main_v75 : Ref sig .tc := ⟨.hbm, 111, rfl⟩
abbrev main_cst_19 : Ref sig .tc := ⟨.hbm, 112, rfl⟩
abbrev main_v76 : Ref sig .tc := ⟨.hbm, 113, rfl⟩
abbrev main_call3_v0 : Ref sig .tc := ⟨.hbm, 114, rfl⟩
abbrev main_call3_cst : Ref sig .tc := ⟨.hbm, 115, rfl⟩
abbrev main_call3_v1 : Ref sig .tc := ⟨.hbm, 116, rfl⟩
abbrev main_v77 : Ref sig .tc := ⟨.hbm, 117, rfl⟩
abbrev main_v78 : Ref sig .tc := ⟨.hbm, 118, rfl⟩
abbrev main_call4_v0 : Ref sig .tc := ⟨.hbm, 119, rfl⟩
abbrev main_call4_cst : Ref sig .tc := ⟨.hbm, 120, rfl⟩
abbrev main_call4_v1 : Ref sig .tc := ⟨.hbm, 121, rfl⟩
abbrev main_v79 : Ref sig .tc := ⟨.hbm, 122, rfl⟩
abbrev main_v80 : Ref sig .tc := ⟨.hbm, 123, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  concatenates_S1000000x1_S1000000x1_S1000000x2_d1 : Shape.Concatenates [S1000000x1, S1000000x1] S1000000x2 1
  bcast_S_S1000000x128 : S_.BroadcastsInDim S1000000x128 (![] : Fin 0 → Fin S1000000x128.rank)
  reducesTo_S1000000x128_S1000000_d1 : S1000000x128.ReducesTo [1] S1000000
  h_S_ : 0 < S_.numel
  reducesTo_S1000000_S_d0 : S1000000.ReducesTo [0] S_
  reducesTo_S50000_S_d0 : S50000.ReducesTo [0] S_
  gather_S50000x128_S1000000x1_S1000000x128_1_0_n_n_0_1_1128_wf : GatherDims.WF S50000x128 S1000000x1 S1000000x128 [1] [0] [] [0] [] 1 ![1, 128]
  gather_S50000_S1000000x1_S1000000_n_0_n_n_0_1_1_wf : GatherDims.WF S50000 S1000000x1 S1000000 [] [0] [] [0] [] 1 ![1]
  gather_S1000000_S1000000x1_S1000000_n_0_n_n_0_1_1_wf : GatherDims.WF S1000000 S1000000x1 S1000000 [] [0] [] [0] [] 1 ![1]
  scatter_S1000000x128_S1000000x2_S1000000_n_01_01_1_wf : ScatterDims.WF S1000000x128 S1000000x2 S1000000 [] [0, 1] [0, 1] 1

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def scatter_S1000000x128_S1000000x2_S1000000_n_01_01_1 : ScatterDims S1000000x128 S1000000x2 S1000000 where
  updateWindowDims := []
  insertedWindowDims := [0, 1]
  scatterDimsToOperandDims := [0, 1]
  indexVectorDim := 1
  wf := scatter_S1000000x128_S1000000x2_S1000000_n_01_01_1_wf

class Facts : Prop extends Facts₀ where

variable [Facts]
-- ==== Proof.KernelTerms.lean ====
/-
  NAMES for what the host lines before the kernel's region compute from the arguments: an index vector with its negative
  entries moved up by the table's extent (NumPy's reading of a negative index), the five per-edge arrays gathered by those
  vectors — the table's rows at an edge's two endpoints, the biases at the two endpoints, the target —, and the two
  Euclidean norms the result adds at the end.
-/
import proofs.«411161_j77043123355910_2_alg».proof.Proof.Gen.KernelIdeal
import Idealize.ShloMosaic.Lib.ValueIdx

noncomputable section

open scoped BigOperators

namespace Cert.KernelIdeal.Terms

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- An index vector with its negative entries moved up by the extent word `n`. -/
abbrev wrapVec (n : BitVec 32) (v : IVec S1000000 32) : IVec S1000000 32 :=
  select (cmpi .slt v (broadcastInDim S1000000 ![] bcast_S_S1000000 (constantI S_ 32 0#32)))
    (addi v (broadcastInDim S1000000 ![] bcast_S_S1000000 (constantI S_ 32 n))) v

/-- The same as the one-column array of start indices a gather reads. -/
abbrev wrapCol (n : BitVec 32) (v : IVec S1000000 32) : IVec S1000000x1 32 :=
  broadcastInDim S1000000x1 ![0] bcast_S1000000_S1000000x1_0 (wrapVec n v)

/-- The table's row at each edge's endpoint k. -/
abbrev xk : FVec Ideal S1000000x128 .f32 :=
  Host.gather gather_S50000x128_S1000000x1_S1000000x128_1_0_n_n_0_1_1128 (m ((c.tc : Thread nD τ).loc main_arg0))
    (wrapCol 50000#32 (m ((c.tc : Thread nD τ).loc main_arg4)))
/-- The table's row at each edge's endpoint i. -/
abbrev xi : FVec Ideal S1000000x128 .f32 :=
  Host.gather gather_S50000x128_S1000000x1_S1000000x128_1_0_n_n_0_1_1128 (m ((c.tc : Thread nD τ).loc main_arg0))
    (wrapCol 50000#32 (m ((c.tc : Thread nD τ).loc main_arg3)))
/-- The bias at each edge's endpoint k. -/
abbrev ck : FVec Ideal S1000000 .f32 :=
  Host.gather gather_S50000_S1000000x1_S1000000_n_0_n_n_0_1_1 (m ((c.tc : Thread nD τ).loc main_arg1))
    (wrapCol 50000#32 (m ((c.tc : Thread nD τ).loc main_arg4)))
/-- The bias at each edge's endpoint i. -/
abbrev ci : FVec Ideal S1000000 .f32 :=
  Host.gather gather_S50000_S1000000x1_S1000000_n_0_n_n_0_1_1 (m ((c.tc : Thread nD τ).loc main_arg1))
    (wrapCol 50000#32 (m ((c.tc : Thread nD τ).loc main_arg3)))
/-- Each edge's target. -/
abbrev ag : FVec Ideal S1000000 .f32 :=
  Host.gather gather_S1000000_S1000000x1_S1000000_n_0_n_n_0_1_1 (m ((c.tc : Thread nD τ).loc main_arg2))
    (wrapCol 1000000#32 (m ((c.tc : Thread nD τ).loc main_arg6)))
/-- The Euclidean norm of the biases. -/
abbrev normC : FVec Ideal S_ .f32 :=
  Host.sqrt (Host.reduceAdd (mulf (m ((c.tc : Thread nD τ).loc main_arg1)) (m ((c.tc : Thread nD τ).loc main_arg1)))
    (constant S_ .f32 0x00000000#32) reducesTo_S50000_S_d0 h_S_)
/-- The Euclidean norm of the targets' table. -/
abbrev normA : FVec Ideal S_ .f32 :=
  Host.sqrt (Host.reduceAdd (mulf (m ((c.tc : Thread nD τ).loc main_arg2)) (m ((c.tc : Thread nD τ).loc main_arg2)))
    (constant S_ .f32 0x00000000#32) reducesTo_S1000000_S_d0 h_S_)

end Cert.KernelIdeal.Terms

end
-- ==== Proof.KernelPieces.lean ====
/-
  WHAT ONE RUN OF THE BODY LEAVES IN THE 1×1 ACCUMULATOR, at any float instance. At the first grid point the body stores the
  zero, reads it back and stores `0 + (the block's sum)`; at every later point it stores `(what the point before left) + (the
  block's sum)`. Each is the body's short payload of the long payload of the point's six input blocks.
-/
import proofs.«411161_j77043123355910_2_alg».proof.Proof.Gen.KernelIdeal.Frame
import Idealize.ShloMosaic.Lib.Pipeline.Value
import Idealize.ShloMosaic.Lib.Tactic

noncomputable section

open scoped BigOperators

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point: the accumulator's contents `xo` plus the block's sum. -/
theorem out_B (c : Dev nD) (i : grid0.Coords) (a1 : Memref sig .tc .vmem S4000x128 .f32) (h1 : a1.IsWhole)
    (a2 : Memref sig .tc .vmem S4000x1 .f32) (h2 : a2.IsWhole) (a3 : Memref sig .tc .vmem S4000x1 .i32) (h3 : a3.IsWhole)
    (a4 : Memref sig .tc .vmem S4000x128 .i32) (h4 : a4.IsWhole) (a5 : Memref sig .tc .vmem S4000x1 .f32) (h5 : a5.IsWhole)
    (a6 : Memref sig .tc .vmem S4000x1 .f32) (h6 : a6.IsWhole) (a7 : Memref sig .tc .vmem S1x1 .f32) (h7 : a7.IsWhole) (hc : ¬cond0_0 i)
    (x0 : Vec F S4000x128 .f32) (x1 : Vec F S4000x1 .f32) (x2 : Vec F S4000x1 .i32) (x3 : Vec F S4000x128 .i32)
    (x4 : Vec F S4000x1 .f32) (x5 : Vec F S4000x1 .f32) (xo : Vec F S1x1 .f32) :
    out0_B_6 c i a1 h1 a2 h2 a3 h3 a4 h4 a5 h5 a6 h6 a7 h7 hc x0 x1 x2 x3 x4 x5 xo = k0_pay1 (k0_pay3 x0 x1 x2 x3 x4 x5) xo := by
  unfold out0_B_6
  rw [View.read_writes_eq_canon _ _ _ (cover0_B_6 c i a1 h1 a2 h2 a3 h3 a4 h4 a5 h5 a6 h6 a7 h7 hc x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread,
    h6.read_unread, h7.read_unread, View.ld_unit_zero (S := S4000x128) hz, View.ld_unit_zero (S := S4000x1) hz,
    View.ld_unit_zero (S := S1x1) hz]

/-- The first point: the zero plus the block's sum. -/
theorem out_A (c : Dev nD) (i : grid0.Coords) (a1 : Memref sig .tc .vmem S4000x128 .f32) (h1 : a1.IsWhole)
    (a2 : Memref sig .tc .vmem S4000x1 .f32) (h2 : a2.IsWhole) (a3 : Memref sig .tc .vmem S4000x1 .i32) (h3 : a3.IsWhole)
    (a4 : Memref sig .tc .vmem S4000x128 .i32) (h4 : a4.IsWhole) (a5 : Memref sig .tc .vmem S4000x1 .f32) (h5 : a5.IsWhole)
    (a6 : Memref sig .tc .vmem S4000x1 .f32) (h6 : a6.IsWhole) (a7 : Memref sig .tc .vmem S1x1 .f32) (h7 : a7.IsWhole) (hc : cond0_0 i)
    (x0 : Vec F S4000x128 .f32) (x1 : Vec F S4000x1 .f32) (x2 : Vec F S4000x1 .i32) (x3 : Vec F S4000x128 .i32)
    (x4 : Vec F S4000x1 .f32) (x5 : Vec F S4000x1 .f32) :
    out0_A_6 c i a1 h1 a2 h2 a3 h3 a4 h4 a5 h5 a6 h6 a7 h7 hc x0 x1 x2 x3 x4 x5 = k0_pay1 (k0_pay3 x0 x1 x2 x3 x4 x5) (k0_pay2 (F := F)) := by
  unfold out0_A_6
  rw [View.read_writes_eq_canon _ _ _ (cover0_A_6 c i a1 h1 a2 h2 a3 h3 a4 h4 a5 h5 a6 h6 a7 h7 hc x0 x1 x2 x3 x4 x5)]
  unfold kernelRun0_A
  dsimp only
  sl_unfold_words
  rw [View.canon_cons_unit_zero (S := S1x1) hz]
  simp only [View.readAt_eq_ld, h1.read_unread, h2.read_unread, h3.read_unread, h4.read_unread, h5.read_unread,
    h6.read_unread, h7.read_unread, View.ld_unit_zero (S := S4000x128) hz, View.ld_unit_zero (S := S4000x1) hz,
    View.ld_unit_zero (S := S1x1) hz, View.readCov_unit_zero (S := S1x1) _ hz]

end Cert.KernelIdeal.Pieces

end
-- ==== Proof.Spec.lean ====
/-
  THE EDGE LOSS, as a function of per-edge values. Each of the 1,000,000 edges carries a row of 128 entries; an entry is
  kept where the edge's mask bit is set and is zero elsewhere; the edge's loss is `w · scale` times the safe Euclidean norm
  of its kept entries (the square root of the sum of squares where that sum is positive, zero where it is not); the result
  sums the losses over the edges. The two programs differ in how they form an entry — one subtracts `δ · [column = j]` from
  `(xk − xi) + (ck − ci)`, the other adds `−δ` at column j to `((xk + ck) − xi) − ci`, with `δ = a − ci` — and in how they
  group the sum over the edges: all at once, or 250 blocks of 4000 one after the other. On finite values with the column
  in [0, 128) the entries agree (ring arithmetic on the reals), and a sum over a commutative monoid may be regrouped freely.
-/
import Idealize.ShloMosaic.PureOps.Ideal
import Idealize.ShloMosaic.PureOps.Ideal.Laws
import Idealize.ShloMosaic.Lib.ValueIdx

noncomputable section

open scoped BigOperators

namespace Cert.EdgeLoss

open Idealize.ShloMosaic

/-- The value of the word 0x3F800000 (the float 1.0): the same word stands in both programs and is never evaluated. -/
abbrev one32 : EReal := Ideal.ofBits .f32 0x3F800000#32

/-- The safe norm of a sum of squares `s`: `√s` where `s > 0` (the square root taken of `s` there and of 1.0 elsewhere), and 0
    where `s ≤ 0`. -/
def safeNorm (s : EReal) : EReal :=
  Scalar.select (Ideal.cmp .ogt s 0) (Ideal.sqrt (Scalar.select (Ideal.cmp .ogt s 0) s one32)) 0

/-- One edge's loss from its weight, its scale and its row of (already masked) entries. -/
def rowLoss (w sc : EReal) (row : Fin 128 → EReal) : EReal := (w * sc) * safeNorm (∑ d, row d * row d)

/-- The sum of the edges' losses. -/
def total (w sc : Fin 1000000 → EReal) (ent : Fin 1000000 → Fin 128 → EReal) : EReal :=
  ∑ e, rowLoss (w e) (sc e) (ent e)

/-- An entry as the kernel forms it: where the widened mask word is not zero, `(xk − xi) + (ck − ci)` less `(a − ci)` times
    the one-hot of column `d` against the edge's column word `j` (the comparison's bit widened and read as a number). -/
def entryK (xk xi ck ci a : EReal) (j : BitVec 32) (mk : BitVec 1) (d : Fin 128) : EReal :=
  Scalar.select (IntOp.cmpi .ne (mk.setWidth 32) 0#32)
    (((xk - xi) + (ck - ci)) - (a - ci) * ((((IntOp.cmpi .eq (BitVec.ofNat 32 d.val) j).setWidth 32).toInt : ℝ) : EReal)) 0

/-- An entry as the reference forms it: where the mask bit is set, `((xk + ck) − xi) − ci` plus `−(a − ci)` if the edge's
    (wrapped) column word `j'`, read signed, is `d`. -/
def entryR (xk xi ck ci a : EReal) (j' : BitVec 32) (mk : BitVec 1) (d : Fin 128) : EReal :=
  Scalar.select mk ((((xk + ck) - xi) - ci) + (if j'.toInt = (d.val : ℤ) then -(a - ci) else 0)) 0

/-- The widened mask word is not zero exactly when the mask bit is set. -/
theorem mask_word (mk : BitVec 1) : IntOp.cmpi .ne (mk.setWidth 32) 0#32 = mk := by
  by_cases h : mk = 1#1
  · subst h; decide
  · have h0 := ValueIdx.eq_zero_of_ne_one h
    subst h0; decide

/-- A column word in [0, 128) read signed is its unsigned value. -/
theorem toInt_of_range (j : BitVec 32) (hj0 : 0 ≤ j.toInt) : j.toInt = (j.toNat : ℤ) := by
  have h := BitVec.toInt_eq_toNat_cond j
  have hl := j.isLt
  split at h <;> omega

/-- The one-hot bit of column `d` against a column word `j` in range, widened and read as a number: 1 if `j` is `d`, else 0. -/
theorem onehot_word (j : BitVec 32) (hj0 : 0 ≤ j.toInt) (d : Fin 128) :
    (((IntOp.cmpi .eq (BitVec.ofNat 32 d.val) j).setWidth 32).toInt : ℝ) = if j.toInt = (d.val : ℤ) then 1 else 0 := by
  have hn := toInt_of_range j hj0
  have hd := d.isLt
  by_cases h : BitVec.ofNat 32 d.val = j
  · have hv : j.toNat = d.val := by
      rw [← h, BitVec.toNat_ofNat]; omega
    have hc : IntOp.cmpi .eq (BitVec.ofNat 32 d.val) j = 1#1 := by
      unfold IntOp.cmpi; simp [h]
    rw [hc, if_pos (by omega)]
    norm_num
  · have hv : j.toNat ≠ d.val := by
      intro hv; apply h
      apply BitVec.eq_of_toNat_eq
      rw [BitVec.toNat_ofNat, hv]; omega
    have hb : (BitVec.ofNat 32 d.val == j) = false := beq_eq_false_iff_ne.mpr h
    have hc : IntOp.cmpi .eq (BitVec.ofNat 32 d.val) j = 0#1 := by
      show BitVec.ofBool (BitVec.ofNat 32 d.val == j) = 0#1
      rw [hb]; rfl
    rw [hc, if_neg (by omega)]
    norm_num

/-- THE TWO ENTRIES AGREE on finite values when the column word is in [0, 128) and the reference's wrapped word reads as it. -/
theorem entry_eq (xk xi ck ci a : ℝ) (j j' : BitVec 32) (hj0 : 0 ≤ j.toInt) (hj' : j'.toInt = j.toInt)
    (mk : BitVec 1) (d : Fin 128) :
    entryK xk xi ck ci a j mk d = entryR xk xi ck ci a j' mk d := by
  unfold entryK entryR
  rw [mask_word, onehot_word j hj0 d, hj']
  congr 1
  by_cases h : j.toInt = (d.val : ℤ)
  · rw [if_pos h, if_pos h]
    simp only [← EReal.coe_sub, ← EReal.coe_add, ← EReal.coe_mul, ← EReal.coe_neg]
    congr 1; ring
  · rw [if_neg h, if_neg h]
    simp only [← EReal.coe_sub, ← EReal.coe_add, ← EReal.coe_mul, add_zero]
    congr 1; ring

/-! ## The edges in blocks -/

/-- Edge `4000 · t + r`: row `r` of block `t`. -/
abbrev edge (t : Fin 250) (r : Fin 4000) : Fin 1000000 := ⟨4000 * t.val + r.val, by have := t.isLt; have := r.isLt; omega⟩

/-- The edges are the pairs (block, row in the block). -/
def edgeEquiv : Fin 250 × Fin 4000 ≃ Fin 1000000 := finProdFinEquiv.trans (finCongr (by norm_num))

theorem edgeEquiv_apply (t : Fin 250) (r : Fin 4000) : edgeEquiv (t, r) = edge t r := by
  apply Fin.ext
  simp only [edgeEquiv, Equiv.trans_apply, finProdFinEquiv_apply_val, finCongr_apply, Fin.coe_cast]
  omega

/-- A sum over the edges is the sum over the blocks of the sums over each block's rows. -/
theorem sum_blocks {M : Type*} [AddCommMonoid M] (f : Fin 1000000 → M) :
    ∑ e, f e = ∑ t : Fin 250, ∑ r : Fin 4000, f (edge t r) := by
  rw [← Equiv.sum_comp edgeEquiv f, Fintype.sum_prod_type]
  simp only [edgeEquiv_apply]

/-- The total loss, block by block. -/
theorem total_blocks (w sc : Fin 1000000 → EReal) (ent : Fin 1000000 → Fin 128 → EReal) :
    total w sc ent = ∑ t : Fin 250, ∑ r : Fin 4000, rowLoss (w (edge t r)) (sc (edge t r)) (ent (edge t r)) :=
  sum_blocks _

/-! ## The loss as a function of the per-edge arrays -/

open Idealize.ShloMosaic.ValueIdx

/-- The kernel's loss over the five gathered arrays (`xk`, `xi`: rows of the table at the two endpoints; `ck`, `ci`: the
    endpoints' biases; `a`: the edge's target), the weights, the scales, the column words and the mask bits. -/
def lossK (xk xi : (⟨2, ![1000000, 128]⟩ : Shape).Idx → EReal) (ck ci a w sc : (⟨1, ![1000000]⟩ : Shape).Idx → EReal)
    (j : IVec ⟨1, ![1000000]⟩ 32) (mk : IVec ⟨2, ![1000000, 128]⟩ 1) : EReal :=
  total (fun e => w (ix1 e)) (fun e => sc (ix1 e))
    (fun e d => entryK (xk (ix2 e d)) (xi (ix2 e d)) (ck (ix1 e)) (ci (ix1 e)) (a (ix1 e)) (j (ix1 e)) (mk (ix2 e d)) d)

/-- The reference's loss over the same arrays, with its (wrapped) column words `j'`. -/
def lossR (xk xi : (⟨2, ![1000000, 128]⟩ : Shape).Idx → EReal) (ck ci a w sc : (⟨1, ![1000000]⟩ : Shape).Idx → EReal)
    (j' : IVec ⟨1, ![1000000]⟩ 32) (mk : IVec ⟨2, ![1000000, 128]⟩ 1) : EReal :=
  total (fun e => w (ix1 e)) (fun e => sc (ix1 e))
    (fun e d => entryR (xk (ix2 e d)) (xi (ix2 e d)) (ck (ix1 e)) (ci (ix1 e)) (a (ix1 e)) (j' (ix1 e)) (mk (ix2 e d)) d)

/-- THE TWO LOSSES AGREE when the gathered values are finite, every column word is non-negative, and the reference's wrapped
    word reads as the column word. -/
theorem lossK_eq_lossR (xk xi : (⟨2, ![1000000, 128]⟩ : Shape).Idx → EReal) (ck ci a w sc : (⟨1, ![1000000]⟩ : Shape).Idx → EReal)
    (j j' : IVec ⟨1, ![1000000]⟩ 32) (mk : IVec ⟨2, ![1000000, 128]⟩ 1)
    (hxk : ∀ i, ∃ r : ℝ, xk i = (r : EReal)) (hxi : ∀ i, ∃ r : ℝ, xi i = (r : EReal))
    (hck : ∀ i, ∃ r : ℝ, ck i = (r : EReal)) (hci : ∀ i, ∃ r : ℝ, ci i = (r : EReal)) (ha : ∀ i, ∃ r : ℝ, a i = (r : EReal))
    (hj : ∀ i, 0 ≤ (j i).toInt) (hj' : ∀ i, (j' i).toInt = (j i).toInt) :
    lossK xk xi ck ci a w sc j mk = lossR xk xi ck ci a w sc j' mk := by
  unfold lossK lossR
  congr 1
  funext e d
  obtain ⟨r1, h1⟩ := hxk (ix2 e d)
  obtain ⟨r2, h2⟩ := hxi (ix2 e d)
  obtain ⟨r3, h3⟩ := hck (ix1 e)
  obtain ⟨r4, h4⟩ := hci (ix1 e)
  obtain ⟨r5, h5⟩ := ha (ix1 e)
  rw [h1, h2, h3, h4, h5]
  exact entry_eq r1 r2 r3 r4 r5 _ _ (hj _) (hj' _) _ d

end Cert.EdgeLoss

end
-- ==== Proof.KernelPay.lean ====
/-
  THE KERNEL BODY'S ARITHMETIC AT AN INDEX, at the ideal instance. One grid point holds 4000 edges. The body's long payload
  gives each row r of the block its edge's loss: `w · scale` times the safe norm of the row's 128 masked entries, an entry
  being `a − δ · [column = j]` where the mask word is not zero and 0 elsewhere. The short payload adds the block's 4000
  losses to what the 1×1 accumulator held; the reset payload is the zero.
-/
import proofs.«411161_j77043123355910_2_alg».proof.Proof.Gen.KernelIdeal.Skeleton
import proofs.«411161_j77043123355910_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.EdgeLoss

/-! ## The layout operations at explicit coordinates -/

/-- A 1×1 block has one index. -/
theorem unit_idx (y : S1x1.Idx) : y = ix2 (0 : Fin 1) (0 : Fin 1) := by
  funext a
  apply Fin.ext
  match a with
  | ⟨0, _⟩ => have h : (y 0).val < 1 := idx2_lt0 y; show (y 0).val = 0; omega
  | ⟨1, _⟩ => have h : (y 1).val < 1 := idx2_lt1 y; show (y 1).val = 0; omega

/-- A length-4000 vector viewed as a 4000×1 column reads, at (r, 0), the vector at r. -/
theorem col_of_vec_apply {α : Type} (v : S4000.Idx → α) (h : S4000.ShapeCasts S4000x1) (r : Fin 4000) (u : Fin 1) :
    shapeCast S4000x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A one-entry vector viewed as a 1×1 block reads its one entry. -/
theorem unit_of_vec_apply {α : Type} (v : S1.Idx → α) (h : S1.ShapeCasts S1x1) (a b : Fin 1) :
    shapeCast S1x1 v h (ix2 a b) = v (ix1 (0 : Fin 1)) :=
  shapeCast_apply v h _ _ (by
    have ha : a.val = 0 := by omega
    have hb : b.val = 0 := by omega
    rw [Shape.rowMajor_val_one, Shape.rowMajor_val_two]
    show (0 : ℕ) = a.val * 1 + b.val
    rw [ha, hb])

/-- A 4000×1 column broadcast over 128 lanes reads, at (r, d), the column at (r, 0). -/
theorem bcast_col_apply {α : Type} (v : S4000x1.Idx → α) (h : S4000x1.Broadcasts S4000x128) (r : Fin 4000) (d : Fin 128) :
    broadcastTo S4000x128 v h (ix2 r d) = v (ix2 r (0 : Fin 1)) := by
  refine broadcastTo_apply v h (ix2 r d) (ix2 r (0 : Fin 1)) fun ax => ?_
  match ax with
  | ⟨0, _⟩ =>
    show r.val = if (4000 : ℕ) = 1 then 0 else r.val
    rw [if_neg (by decide)]
  | ⟨1, _⟩ =>
    show (0 : ℕ) = if (1 : ℕ) = 1 then 0 else d.val
    rw [if_pos rfl]

/-- The lane sum of a 4000×128 block at row r is the sum over the 128 lanes of row r. -/
theorem rowSum_apply (v : FVec Ideal S4000x128 .f32) (r : Fin 4000) :
    multiReduction (F := Ideal) .add [1] S4000 v 0x00000000#32 reduces_S4000x128_S4000 (.inl rfl) rfl (ix1 r)
      = ∑ d : Fin 128, v (ix2 r d) := by
  refine (Ideal.multiReduction_add_single v 0x00000000#32 reduces_S4000x128_S4000 (.inl rfl) rfl (ix1 r)).trans ?_
  refine Finset.sum_congr rfl fun d _ => congrArg v ?_
  funext c
  apply Fin.ext
  match c with
  | ⟨0, _⟩ => rfl
  | ⟨1, _⟩ => rfl

/-- The sum down a 4000×1 column at its one index is the sum over the 4000 rows. -/
theorem colSum_apply (v : FVec Ideal S4000x1 .f32) :
    multiReduction (F := Ideal) .add [0] S1 v 0x00000000#32 reduces_S4000x1_S1 (.inl rfl) rfl (ix1 (0 : Fin 1))
      = ∑ r : Fin 4000, v (ix2 r (0 : Fin 1)) := by
  refine (Ideal.multiReduction_add_single v 0x00000000#32 reduces_S4000x1_S1 (.inl rfl) rfl (ix1 (0 : Fin 1))).trans ?_
  refine Finset.sum_congr rfl fun r _ => congrArg v ?_
  funext c
  apply Fin.ext
  match c with
  | ⟨0, _⟩ => rfl
  | ⟨1, _⟩ => rfl

/-- The lane counter at (r, d) is the word d. -/
theorem lane_iota_apply (r : Fin 4000) (d : Fin 128) :
    iota .tc S4000x128 32 [1] iota_S4000x128_d1_w32 (ix2 r d) = BitVec.ofNat 32 d.val :=
  iota_single_apply .tc S4000x128 32 1 iota_S4000x128_d1_w32 (ix2 r d)

/-- The lane sum of squares, kept as a column, at (r, 0). -/
theorem sumsq_apply (e : FVec Ideal S4000x128 .f32) (r : Fin 4000) :
    shapeCast S4000x1 (multiReduction (F := Ideal) .add [1] S4000 (mulf e e) 0x00000000#32 reduces_S4000x128_S4000 (.inl rfl) rfl)
        shapeCasts_S4000_S4000x1 (ix2 r (0 : Fin 1))
      = ∑ d : Fin 128, e (ix2 r d) * e (ix2 r d) :=
  (col_of_vec_apply _ _ r 0).trans (rowSum_apply (mulf e e) r)

/-- One masked entry at (r, d). -/
theorem entry_apply (x0 : Vec Ideal S4000x128 .f32) (x1 : Vec Ideal S4000x1 .f32) (x2 : Vec Ideal S4000x1 .i32)
    (x3 : Vec Ideal S4000x128 .i32) (r : Fin 4000) (d : Fin 128) :
    select (cmpi .ne x3 (constantI S4000x128 32 0#32))
        (subf (shapeCast S4000x128 x0 shapeCasts_S4000x128_S4000x128)
          (mulf (broadcastTo S4000x128 (shapeCast S4000x1 x1 shapeCasts_S4000x1_S4000x1) broadcasts_S4000x1_S4000x128)
            (sitofp .f32 (extui 32 (cmpi .eq (iota .tc S4000x128 32 [1] iota_S4000x128_d1_w32)
              (broadcastTo S4000x128 (shapeCast S4000x1 x2 shapeCasts_S4000x1_S4000x1) broadcasts_S4000x1_S4000x128)) natLt_1_32))))
        (broadcast S4000x128 (Scalar.ofBits (F := Ideal) .f32 0x00000000#32)) (ix2 r d)
      = Scalar.select (IntOp.cmpi .ne (x3 (ix2 r d)) 0#32)
          (x0 (ix2 r d) - x1 (ix2 r 0)
            * ((((IntOp.cmpi .eq (BitVec.ofNat 32 d.val) (x2 (ix2 r 0))).setWidth 32).toInt : ℝ) : EReal)) 0 := by
  have h0 : shapeCast S4000x128 x0 shapeCasts_S4000x128_S4000x128 (ix2 r d) = x0 (ix2 r d) :=
    congrFun (shapeCast_self x0 _) _
  have h1 : broadcastTo S4000x128 (shapeCast S4000x1 x1 shapeCasts_S4000x1_S4000x1) broadcasts_S4000x1_S4000x128 (ix2 r d)
      = x1 (ix2 r 0) :=
    (bcast_col_apply _ _ r d).trans (congrFun (shapeCast_self x1 _) _)
  have h2 : broadcastTo S4000x128 (shapeCast S4000x1 x2 shapeCasts_S4000x1_S4000x1) broadcasts_S4000x1_S4000x128 (ix2 r d)
      = x2 (ix2 r 0) :=
    (bcast_col_apply _ _ r d).trans (congrFun (shapeCast_self x2 _) _)
  have hi := lane_iota_apply r d
  show Scalar.select (IntOp.cmpi .ne (x3 (ix2 r d)) 0#32)
      (shapeCast S4000x128 x0 shapeCasts_S4000x128_S4000x128 (ix2 r d)
        - broadcastTo S4000x128 (shapeCast S4000x1 x1 shapeCasts_S4000x1_S4000x1) broadcasts_S4000x1_S4000x128 (ix2 r d)
          * ((((IntOp.cmpi .eq (iota .tc S4000x128 32 [1] iota_S4000x128_d1_w32 (ix2 r d))
              (broadcastTo S4000x128 (shapeCast S4000x1 x2 shapeCasts_S4000x1_S4000x1) broadcasts_S4000x1_S4000x128 (ix2 r d))).setWidth 32).toInt : ℝ) : EReal))
      (Ideal.ofBits .f32 0x00000000#32) = _
  rw [h0, h1, h2, hi, Ideal.ofBits_zero_f32]

/-- The weight times the scale times the safe norm of a column of sums of squares, at an index. -/
theorem tail_apply (w sc s : FVec Ideal S4000x1 .f32) (i : S4000x1.Idx) :
    mulf (mulf w sc)
        (select (cmpf .ogt s (broadcast S4000x1 (Scalar.ofBits (F := Ideal) .f32 0x00000000#32)))
          (sqrt (select (cmpf .ogt s (broadcast S4000x1 (Scalar.ofBits (F := Ideal) .f32 0x00000000#32))) s
            (broadcast S4000x1 (Scalar.ofBits (F := Ideal) .f32 0x3F800000#32))))
          (broadcast S4000x1 (Scalar.ofBits (F := Ideal) .f32 0x00000000#32))) i
      = (w i * sc i) * safeNorm (s i) := by
  show (w i * sc i) * Scalar.select (Ideal.cmp .ogt (s i) (Ideal.ofBits .f32 0x00000000#32))
      (Ideal.sqrt (Scalar.select (Ideal.cmp .ogt (s i) (Ideal.ofBits .f32 0x00000000#32)) (s i) one32))
      (Ideal.ofBits .f32 0x00000000#32) = _
  rw [Ideal.ofBits_zero_f32]
  rfl

/-- Row r of the long payload: the loss of the block's r-th edge. -/
theorem pay3_apply (x0 : Vec Ideal S4000x128 .f32) (x1 : Vec Ideal S4000x1 .f32) (x2 : Vec Ideal S4000x1 .i32)
    (x3 : Vec Ideal S4000x128 .i32) (x4 x5 : Vec Ideal S4000x1 .f32) (r : Fin 4000) :
    k0_pay3 (F := Ideal) x0 x1 x2 x3 x4 x5 (ix2 r 0)
      = rowLoss (x4 (ix2 r 0)) (x5 (ix2 r 0)) (fun d =>
          Scalar.select (IntOp.cmpi .ne (x3 (ix2 r d)) 0#32)
            (x0 (ix2 r d) - x1 (ix2 r 0)
              * ((((IntOp.cmpi .eq (BitVec.ofNat 32 d.val) (x2 (ix2 r 0))).setWidth 32).toInt : ℝ) : EReal)) 0) := by
  unfold k0_pay3
  refine (tail_apply _ _ _ (ix2 r 0)).trans ?_
  unfold rowLoss
  refine congr (congrArg HMul.hMul (congr (congrArg HMul.hMul (congrFun (shapeCast_self x4 _) _))
    (congrFun (shapeCast_self x5 _) _))) (congrArg safeNorm ?_)
  refine (sumsq_apply _ r).trans ?_
  refine Finset.sum_congr rfl fun d _ => ?_
  have he := entry_apply x0 x1 x2 x3 r d
  exact congr (congrArg HMul.hMul he) he

/-- The short payload: the accumulator's one entry plus the sum of the block's 4000 losses. -/
theorem pay1_apply (v36 : FVec Ideal S4000x1 .f32) (v39 : Vec Ideal S1x1 .f32) (y : S1x1.Idx) :
    k0_pay1 (F := Ideal) v36 v39 y = v39 (ix2 0 0) + ∑ r : Fin 4000, v36 (ix2 r 0) := by
  rw [unit_idx y]
  unfold k0_pay1
  show shapeCast S1x1 v39 shapeCasts_S1x1_S1x1 (ix2 0 0)
      + shapeCast S1x1 (multiReduction (F := Ideal) .add [0] S1 v36 0x00000000#32 reduces_S4000x1_S1 (.inl rfl) rfl)
          shapeCasts_S1_S1x1 (ix2 0 0) = _
  rw [shapeCast_self v39, unit_of_vec_apply, colSum_apply]

/-- The reset payload is the zero. -/
theorem pay2_apply (y : S1x1.Idx) : k0_pay2 (F := Ideal) y = 0 := by
  unfold k0_pay2
  exact Ideal.ofBits_zero_f32

end Cert.KernelIdeal.Pay

end
-- ==== Proof.KernelHost.lean ====
/-
  WHAT THE KERNEL'S REGION FINDS IN ITS SIX INPUT ARRAYS, element by element, and what a grid point's blocks are. The host
  lines before the region gather the per-edge arrays and combine them: array 0 holds `(xk − xi) + (ck − ci)` at (edge,
  column), array 1 `a − ci` per edge, arrays 2, 4, 5 the column words, weights and scales as one-column arrays, array 3 the
  mask bits widened to words. Grid point t's block of each is its rows 4000·t … 4000·t + 3999.
-/
import proofs.«411161_j77043123355910_2_alg».proof.Proof.Gen.KernelIdeal.Frame
import proofs.«411161_j77043123355910_2_alg».proof.Proof.KernelTerms
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.KernelIdeal.HostValue

open Cert.KernelIdeal Cert.KernelIdeal.Gen Cert.KernelIdeal.Terms Idealize.ShloMosaic Idealize.ShloMosaic.TcCoe Idealize.SL.Sem Idealize.ShloMosaic.ValueIdx

variable (m : (ℓ : Loc nD τ sig) → Buf (Elt Ideal) ℓ) (c : Dev nD)

/-! ## Three layout operations read at an element -/

/-- A vector laid out as a one-column array reads, in row e, the vector's entry e: both sit at row-major position e. -/
theorem col_apply {α : Type} (x : S1000000.Idx → α) (h : S1000000.ShapeCasts S1000000x1) (e : Fin 1000000) :
    shapeCast S1000000x1 x h (ix2 e 0) = x (ix1 e) :=
  shapeCast_apply x h (ix2 e 0) (ix1 e) (by
    rw [Shape.rowMajor_val_two, Shape.rowMajor_val_one]
    show e.val = e.val * 1 + 0
    omega)

/-- A vector spread into a one-column array (its axis kept as the rows) reads, in row e, the vector's entry e. -/
theorem spreadCol_apply {α : Type} (x : S1000000.Idx → α) (e : Fin 1000000) :
    broadcastInDim S1000000x1 ![0] bcast_S1000000_S1000000x1_0 x (ix2 e 0) = x (ix1 e) :=
  broadcastInDim_apply _ _ x (ix2 e 0) (ix1 e) (fun a => by
    match a with
    | ⟨0, _⟩ =>
      show e.val = if (1000000 : ℕ) = 1 then 0 else e.val
      rw [if_neg (by decide)])

/-- A one-column array spread along 128 columns reads, at (e, d), the column's row e. -/
theorem spreadRow_apply {α : Type} (x : S1000000x1.Idx → α) (e : Fin 1000000) (d : Fin 128) :
    broadcastInDim S1000000x128 ![0, 1] bcast_S1000000x1_S1000000x128_0_1 x (ix2 e d) = x (ix2 e 0) :=
  broadcastInDim_apply _ _ x (ix2 e d) (ix2 e 0) (fun a => by
    match a with
    | ⟨0, _⟩ =>
      show e.val = if (1000000 : ℕ) = 1 then 0 else e.val
      rw [if_neg (by decide)]
    | ⟨1, _⟩ =>
      show (0 : ℕ) = if (1 : ℕ) = 1 then 0 else d.val
      rw [if_pos rfl])

/-! ## The region's arrays whole: each is the term its host lines build from the arguments -/

/-- Array 0: the endpoint rows' difference plus the endpoint biases' difference spread along the columns. -/
theorem arr0_eq :
    (V m c main_v39 : FVec Ideal S1000000x128 .f32)
      = addf (subf (xk m c) (xi m c))
          (broadcastInDim S1000000x128 ![0, 1] bcast_S1000000x1_S1000000x128_0_1
            (broadcastInDim S1000000x1 ![0] bcast_S1000000_S1000000x1_0 (subf (ck m c) (ci m c)))) := by
  show StableHlo.after hostOps0 (fun b => m (c, b)) (Proc.devRef .tc main_v39) = _
  after_results_simp <;> rfl

/-- Array 1: the targets minus the biases at endpoint i, as one column. -/
theorem arr1_eq :
    (V m c main_v41 : FVec Ideal S1000000x1 .f32)
      = shapeCast S1000000x1 (subf (ag m c) (ci m c)) shapeCasts_S1000000_S1000000x1 := by
  show StableHlo.after hostOps0 (fun b => m (c, b)) (Proc.devRef .tc main_v41) = _
  after_results_simp <;> rfl

/-- Array 2: argument 5 as one column. -/
theorem arr2_eq :
    (V m c main_v42 : IVec S1000000x1 32)
      = shapeCast S1000000x1 (m ((c.tc : Thread nD τ).loc main_arg5) : IVec S1000000 32) shapeCasts_S1000000_S1000000x1 := by
  show StableHlo.after hostOps0 (fun b => m (c, b)) (Proc.devRef .tc main_v42) = _
  after_results_simp <;> rfl

/-- Array 3: argument 9's bits widened to 32-bit words. -/
theorem arr3_eq :
    (V m c main_v45 : IVec S1000000x128 32)
      = extui 32 (m ((c.tc : Thread nD τ).loc main_arg9) : IVec S1000000x128 1) natLt_1_32 := by
  show StableHlo.after hostOps0 (fun b => m (c, b)) (Proc.devRef .tc main_v45) = _
  after_results_simp <;> rfl

/-- Array 4: argument 7 as one column. -/
theorem arr4_eq :
    (V m c main_v43 : FVec Ideal S1000000x1 .f32)
      = shapeCast S1000000x1 (m ((c.tc : Thread nD τ).loc main_arg7) : FVec Ideal S1000000 .f32) shapeCasts_S1000000_S1000000x1 := by
  show StableHlo.after hostOps0 (fun b => m (c, b)) (Proc.devRef .tc main_v43) = _
  after_results_simp <;> rfl

/-- Array 5: argument 8 as one column. -/
theorem arr5_eq :
    (V m c main_v44 : FVec Ideal S1000000x1 .f32)
      = shapeCast S1000000x1 (m ((c.tc : Thread nD τ).loc main_arg8) : FVec Ideal S1000000 .f32) shapeCasts_S1000000_S1000000x1 := by
  show StableHlo.after hostOps0 (fun b => m (c, b)) (Proc.devRef .tc main_v44) = _
  after_results_simp <;> rfl

/-! ## The region's arrays at an element -/

theorem arr0_apply (e : Fin 1000000) (d : Fin 128) :
    (V m c main_v39 : FVec Ideal S1000000x128 .f32) (ix2 e d)
      = (xk m c (ix2 e d) - xi m c (ix2 e d)) + (ck m c (ix1 e) - ci m c (ix1 e)) := by
  rw [arr0_eq, addf_apply, subf_apply, spreadRow_apply, spreadCol_apply, subf_apply]

theorem arr1_apply (e : Fin 1000000) :
    (V m c main_v41 : FVec Ideal S1000000x1 .f32) (ix2 e 0) = ag m c (ix1 e) - ci m c (ix1 e) := by
  rw [arr1_eq, col_apply, subf_apply]

theorem arr2_apply (e : Fin 1000000) :
    (V m c main_v42 : IVec S1000000x1 32) (ix2 e 0) = (m ((c.tc : Thread nD τ).loc main_arg5) : IVec S1000000 32) (ix1 e) := by
  rw [arr2_eq, col_apply]

theorem arr3_apply (e : Fin 1000000) (d : Fin 128) :
    (V m c main_v45 : IVec S1000000x128 32) (ix2 e d)
      = ((m ((c.tc : Thread nD τ).loc main_arg9) : IVec S1000000x128 1) (ix2 e d)).setWidth 32 := by
  rw [arr3_eq, extui_apply]

theorem arr4_apply (e : Fin 1000000) :
    (V m c main_v43 : FVec Ideal S1000000x1 .f32) (ix2 e 0) = (m ((c.tc : Thread nD τ).loc main_arg7) : FVec Ideal S1000000 .f32) (ix1 e) := by
  rw [arr4_eq, col_apply]

theorem arr5_apply (e : Fin 1000000) :
    (V m c main_v44 : FVec Ideal S1000000x1 .f32) (ix2 e 0) = (m ((c.tc : Thread nD τ).loc main_arg8) : FVec Ideal S1000000 .f32) (ix1 e) := by
  rw [arr5_eq, col_apply]

/-! ## A grid point's blocks -/

/-- The edge in row r of grid point t's blocks. -/
abbrev edgeAt (t : Fin cfg0.N) (r : Fin 4000) : Fin 1000000 :=
  ⟨4000 * t.val + r.val, by have := lt_of_lt_of_eq t.isLt (show cfg0.N = 250 from N_0); have := r.isLt; omega⟩

/-- Every input window's block index at grid point t is (t, 0): the point's number down the rows, no step along the
    columns. Decided over the 250 points. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)

/-! A block read through its window, for ANY contents A of the window's array: entry (r, d) of the block at grid point t
    is A at (4000·t + r, d) — a block's coordinate on an axis is its index there times its extent plus the coordinate
    inside the block. -/

theorem read_blk0 (A : FVec Ideal S1000000x128 .f32) (t : Fin cfg0.N) (r : Fin 4000) (d : Fin 128) :
    (((cfg0.win 0).blk t).view.read (Elt Ideal) A : Vec Ideal S4000x128 .f32) (ix2 r d) = A (ix2 (edgeAt t r) d) := by
  rw [View.read_apply]
  show A _ = A _
  refine congrArg A ?_
  funext a
  apply Fin.ext
  match a with
  | ⟨0, _⟩ => show win0_0.index t 0 * 4000 + 1 * r.val = 4000 * t.val + r.val; rw [(index0 t).1]; omega
  | ⟨1, _⟩ => show win0_0.index t 1 * 128 + 1 * d.val = d.val; rw [(index0 t).2]; omega

theorem read_blk1 (A : FVec Ideal S1000000x1 .f32) (t : Fin cfg0.N) (r : Fin 4000) :
    (((cfg0.win 1).blk t).view.read (Elt Ideal) A : Vec Ideal S4000x1 .f32) (ix2 r 0) = A (ix2 (edgeAt t r) 0) := by
  rw [View.read_apply]
  show A _ = A _
  refine congrArg A ?_
  funext a
  apply Fin.ext
  match a with
  | ⟨0, _⟩ => show win0_1.index t 0 * 4000 + 1 * r.val = 4000 * t.val + r.val; rw [(index1 t).1]; omega
  | ⟨1, _⟩ => show win0_1.index t 1 * 1 + 1 * 0 = 0; rw [(index1 t).2]

theorem read_blk2 (A : IVec S1000000x1 32) (t : Fin cfg0.N) (r : Fin 4000) :
    (((cfg0.win 2).blk t).view.read (Elt Ideal) A : Vec Ideal S4000x1 .i32) (ix2 r 0) = A (ix2 (edgeAt t r) 0) := by
  rw [View.read_apply]
  show A _ = A _
  refine congrArg A ?_
  funext a
  apply Fin.ext
  match a with
  | ⟨0, _⟩ => show win0_2.index t 0 * 4000 + 1 * r.val = 4000 * t.val + r.val; rw [(index2 t).1]; omega
  | ⟨1, _⟩ => show win0_2.index t 1 * 1 + 1 * 0 = 0; rw [(index2 t).2]

theorem read_blk3 (A : IVec S1000000x128 32) (t : Fin cfg0.N) (r : Fin 4000) (d : Fin 128) :
    (((cfg0.win 3).blk t).view.read (Elt Ideal) A : Vec Ideal S4000x128 .i32) (ix2 r d) = A (ix2 (edgeAt t r) d) := by
  rw [View.read_apply]
  show A _ = A _
  refine congrArg A ?_
  funext a
  apply Fin.ext
  match a with
  | ⟨0, _⟩ => show win0_3.index t 0 * 4000 + 1 * r.val = 4000 * t.val + r.val; rw [(index3 t).1]; omega
  | ⟨1, _⟩ => show win0_3.index t 1 * 128 + 1 * d.val = d.val; rw [(index3 t).2]; omega

theorem read_blk4 (A : FVec Ideal S1000000x1 .f32) (t : Fin cfg0.N) (r : Fin 4000) :
    (((cfg0.win 4).blk t).view.read (Elt Ideal) A : Vec Ideal S4000x1 .f32) (ix2 r 0) = A (ix2 (edgeAt t r) 0) := by
  rw [View.read_apply]
  show A _ = A _
  refine congrArg A ?_
  funext a
  apply Fin.ext
  match a with
  | ⟨0, _⟩ => show win0_4.index t 0 * 4000 + 1 * r.val = 4000 * t.val + r.val; rw [(index4 t).1]; omega
  | ⟨1, _⟩ => show win0_4.index t 1 * 1 + 1 * 0 = 0; rw [(index4 t).2]

theorem read_blk5 (A : FVec Ideal S1000000x1 .f32) (t : Fin cfg0.N) (r : Fin 4000) :
    (((cfg0.win 5).blk t).view.read (Elt Ideal) A : Vec Ideal S4000x1 .f32) (ix2 r 0) = A (ix2 (edgeAt t r) 0) := by
  rw [View.read_apply]
  show A _ = A _
  refine congrArg A ?_
  funext a
  apply Fin.ext
  match a with
  | ⟨0, _⟩ => show win0_5.index t 0 * 4000 + 1 * r.val = 4000 * t.val + r.val; rw [(index5 t).1]; omega
  | ⟨1, _⟩ => show win0_5.index t 1 * 1 + 1 * 0 = 0; rw [(index5 t).2]

theorem blk0_apply (t : Fin cfg0.N) (r : Fin 4000) (d : Fin 128) :
    (iblk m c 0 t : Vec Ideal S4000x128 .f32) (ix2 r d) = (V m c main_v39 : FVec Ideal S1000000x128 .f32) (ix2 (edgeAt t r) d) :=
  read_blk0 (V m c main_v39) t r d

theorem blk1_apply (t : Fin cfg0.N) (r : Fin 4000) :
    (iblk m c 1 t : Vec Ideal S4000x1 .f32) (ix2 r 0) = (V m c main_v41 : FVec Ideal S1000000x1 .f32) (ix2 (edgeAt t r) 0) :=
  read_blk1 (V m c main_v41) t r

theorem blk2_apply (t : Fin cfg0.N) (r : Fin 4000) :
    (iblk m c 2 t : Vec Ideal S4000x1 .i32) (ix2 r 0) = (V m c main_v42 : IVec S1000000x1 32) (ix2 (edgeAt t r) 0) :=
  read_blk2 (V m c main_v42) t r

theorem blk3_apply (t : Fin cfg0.N) (r : Fin 4000) (d : Fin 128) :
    (iblk m c 3 t : Vec Ideal S4000x128 .i32) (ix2 r d) = (V m c main_v45 : IVec S1000000x128 32) (ix2 (edgeAt t r) d) :=
  read_blk3 (V m c main_v45) t r d

theorem blk4_apply (t : Fin cfg0.N) (r : Fin 4000) :
    (iblk m c 4 t : Vec Ideal S4000x1 .f32) (ix2 r 0) = (V m c main_v43 : FVec Ideal S1000000x1 .f32) (ix2 (edgeAt t r) 0) :=
  read_blk4 (V m c main_v43) t r

theorem blk5_apply (t : Fin cfg0.N) (r : Fin 4000) :
    (iblk m c 5 t : Vec Ideal S4000x1 .f32) (ix2 r 0) = (V m c main_v44 : FVec Ideal S1000000x1 .f32) (ix2 (edgeAt t r) 0) :=
  read_blk5 (V m c main_v44) t r

end Cert.KernelIdeal.HostValue

end
-- ==== Proof.KernelTail.lean ====
/-
  THE HOST LINES AFTER THE REGION. They read the region's 1×1 result array as a scalar and add to it the Euclidean norm of
  the biases and then the Euclidean norm of the targets' table: the program's result is
  `(out[0,0] + ‖C‖) + ‖A‖`, whatever the region left in its result array.
-/
import proofs.«411161_j77043123355910_2_alg».proof.Proof.Gen.KernelIdeal.Frame
import proofs.«411161_j77043123355910_2_alg».proof.Proof.KernelTerms
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.KernelIdeal.TailValue

open Cert.KernelIdeal Cert.KernelIdeal.Gen Cert.KernelIdeal.Terms Idealize.ShloMosaic Idealize.ShloMosaic.TcCoe Idealize.SL.Sem Idealize.ShloMosaic.ValueIdx

variable (m : (ℓ : Loc nD τ sig) → Buf (Elt Ideal) ℓ) (c : Dev nD)

/-- The region's 1×1 result array after its last grid point. -/
abbrev outArr : Vec Ideal S1x1 .f32 := (dats m 0 c).arrAt 6 cfg0.N

/-- What the host lines after the region leave in the result buffer, from any contents W of the buffers: the 1×1 array
    read as a scalar, plus the Euclidean norm of the second argument, plus the Euclidean norm of the third. Each line's
    result is read at its own buffer and every other buffer keeps what it held; the two sides then agree layer by
    layer (sum, square root, reduction, product), each layer differing only by the identity transport of a buffer's
    contents to its own type. -/
theorem tail_fold (W : Valuation τ sig (Elt Ideal)) :
    @Eq (FVec Ideal S_ .f32)
      (StableHlo.after (List.flatten [hostOps1, hostOps1_1, hostOps1_2, hostOps1_3, hostOps1_4]) W (Proc.devRef .tc main_v51))
      (addf (addf (shapeCast S_ (W (Proc.devRef .tc main_v46) : Vec Ideal S1x1 .f32) shapeCasts_S1x1_S_)
          (Host.sqrt (Host.reduceAdd (mulf (W (Proc.devRef .tc main_arg1) : FVec Ideal S50000 .f32) (W (Proc.devRef .tc main_arg1)))
            (constant S_ .f32 0x00000000#32) reducesTo_S50000_S_d0 h_S_)))
          (Host.sqrt (Host.reduceAdd (mulf (W (Proc.devRef .tc main_arg2) : FVec Ideal S1000000 .f32) (W (Proc.devRef .tc main_arg2)))
            (constant S_ .f32 0x00000000#32) reducesTo_S1000000_S_d0 h_S_))) := by
  simp only [hostOps1, hostOps1_1, hostOps1_2, hostOps1_3, hostOps1_4, List.flatten_cons, List.flatten_nil, List.append_nil, List.cons_append, List.nil_append]
  after_results
  refine congrArg₂ addf (congrArg₂ addf ?_ ?_) ?_
  · rfl
  · refine congrArg Host.sqrt ?_
    refine congrArg₂ (fun a b => Host.reduceAdd a b reducesTo_S50000_S_d0 h_S_) ?_ ?_
    · rfl
    · rfl
  · refine congrArg Host.sqrt ?_
    refine congrArg₂ (fun a b => Host.reduceAdd a b reducesTo_S1000000_S_d0 h_S_) ?_ ?_
    · rfl
    · rfl

/-- What the region leaves, read at the region's result buffer: the result array after the last grid point. -/
theorem left_v46 :
    Pipeline.withArrays (cfgs 0).spec c (V0 m c) (fun w => (dats m 0 c).arrAt w (cfgs 0).N) (Proc.devRef .tc main_v46)
      = outArr m c :=
  Pipeline.withArrays_arr spec0 launch0.win.arr_inj c (V0 m c) (fun w => (dats m 0 c).arrAt w cfg0.N) 6

/-- What the region leaves, read at the second argument (no window's array, and no line before the region writes it):
    the argument as launched. -/
theorem left_arg1 :
    Pipeline.withArrays (cfgs 0).spec c (V0 m c) (fun w => (dats m 0 c).arrAt w (cfgs 0).N) (Proc.devRef .tc main_arg1)
      = m ((c.tc : Thread nD τ).loc main_arg1) :=
  (Pipeline.withArrays_of_ne spec0 c (V0 m c) _ main_arg1 (by exact (by decide : ∀ w, Pipeline.arrRef spec0 w ≠ main_arg1))).trans
    (V_main_arg1 m c)

/-- The same at the third argument. -/
theorem left_arg2 :
    Pipeline.withArrays (cfgs 0).spec c (V0 m c) (fun w => (dats m 0 c).arrAt w (cfgs 0).N) (Proc.devRef .tc main_arg2)
      = m ((c.tc : Thread nD τ).loc main_arg2) :=
  (Pipeline.withArrays_of_ne spec0 c (V0 m c) _ main_arg2 (by exact (by decide : ∀ w, Pipeline.arrRef spec0 w ≠ main_arg2))).trans
    (V_main_arg2 m c)

/-- The result buffer after the host lines that follow the region, from the region's result array after its last point. -/
theorem tail_v51 :
    Pipeline.afterTail₀ cfgs (dats m) 0 (V0 m) [hostOps1, hostOps1_1, hostOps1_2, hostOps1_3, hostOps1_4] c main_v51
      = fun _ => (outArr m c (ix2 0 0) + normC m c ix0) + normA m c ix0 := by
  unfold Pipeline.afterTail₀
  refine (tail_fold _).trans ?_
  funext j
  rw [eq_ix0 j, addf_apply, addf_apply]
  refine congrArg₂ (fun a b : Ideal .f32 => a + b) (congrArg₂ (fun a b : Ideal .f32 => a + b) ?_ ?_) ?_
  · -- the scalar reading of a 1×1 array is its one entry
    refine (shapeCast_apply _ shapeCasts_S1x1_S_ ix0 (ix2 0 0) rfl).trans ?_
    exact congrArg (fun X : Vec Ideal S1x1 .f32 => X (ix2 0 0)) (left_v46 m c)
  · exact congrArg (fun X : FVec Ideal S50000 .f32 =>
      Host.sqrt (Host.reduceAdd (mulf X X) (constant S_ .f32 0x00000000#32) reducesTo_S50000_S_d0 h_S_) ix0) (left_arg1 m c)
  · exact congrArg (fun X : FVec Ideal S1000000 .f32 =>
      Host.sqrt (Host.reduceAdd (mulf X X) (constant S_ .f32 0x00000000#32) reducesTo_S1000000_S_d0 h_S_) ix0) (left_arg2 m c)

end Cert.KernelIdeal.TailValue

end
-- ==== Proof.KernelAcc.lean ====
/-
  THE KERNEL'S RESULT. The region's 1×1 accumulator is reset at the first grid point and gains one block's sum of edge
  losses at every point, so after point n its one entry is the sum of the first n + 1 blocks' sums (induction on the point);
  the last point writes it back, so the region's result array ends at the sum over all 250 blocks, which regrouped is the
  sum over all 1,000,000 edges: the kernel's loss of the gathered arrays. The host lines after the region add the two norms.
-/
import proofs.«411161_j77043123355910_2_alg».proof.Proof.Gen.KernelIdeal.Frame
import proofs.«411161_j77043123355910_2_alg».proof.Proof.KernelTerms
import proofs.«411161_j77043123355910_2_alg».proof.Proof.KernelPieces
import proofs.«411161_j77043123355910_2_alg».proof.Proof.KernelPay
import proofs.«411161_j77043123355910_2_alg».proof.Proof.KernelHost
import proofs.«411161_j77043123355910_2_alg».proof.Proof.KernelTail
import proofs.«411161_j77043123355910_2_alg».proof.Proof.Spec
import Idealize.ShloMosaic.Lib.Pipeline.Value

noncomputable section

open scoped BigOperators

namespace Cert.KernelIdeal.HandValue

open Cert.KernelIdeal Cert.KernelIdeal.Gen Cert.KernelIdeal.Terms Cert.KernelIdeal.HostValue Cert.KernelIdeal.Pay
open Cert.KernelIdeal.Pieces Cert.KernelIdeal.TailValue Cert.EdgeLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## Names of literal type -/

/-- The weights, the scales, the column words and the mask bits, as arrays over the edges. -/
abbrev wArr : (⟨1, ![1000000]⟩ : Shape).Idx → EReal := (m ((c.tc : Thread nD τ).loc main_arg7))
abbrev scArr : (⟨1, ![1000000]⟩ : Shape).Idx → EReal := (m ((c.tc : Thread nD τ).loc main_arg8))
abbrev jArr : IVec ⟨1, ![1000000]⟩ 32 := (m ((c.tc : Thread nD τ).loc main_arg5))
abbrev mkArr : IVec ⟨2, ![1000000, 128]⟩ 1 := (m ((c.tc : Thread nD τ).loc main_arg9))

/-- Grid point t's six input blocks. -/
abbrev b0 (t : Fin cfg0.N) : Vec Ideal S4000x128 .f32 := iblk m c 0 t
abbrev b1 (t : Fin cfg0.N) : Vec Ideal S4000x1 .f32 := iblk m c 1 t
abbrev b2 (t : Fin cfg0.N) : Vec Ideal S4000x1 .i32 := iblk m c 2 t
abbrev b3 (t : Fin cfg0.N) : Vec Ideal S4000x128 .i32 := iblk m c 3 t
abbrev b4 (t : Fin cfg0.N) : Vec Ideal S4000x1 .f32 := iblk m c 4 t
abbrev b5 (t : Fin cfg0.N) : Vec Ideal S4000x1 .f32 := iblk m c 5 t

/-- The kernel's loss of the gathered arrays. -/
def kloss : EReal :=
  lossK (xk m c) (xi m c) (ck m c) (ci m c) (ag m c) (wArr m c) (scArr m c) (jArr m c) (mkArr m c)

/-- Block t's sum of its 4000 edges' losses. -/
def bsum (t : Fin 250) : EReal :=
  ∑ r : Fin 4000, rowLoss (wArr m c (ix1 (edge t r))) (scArr m c (ix1 (edge t r)))
    (fun d => entryK (xk m c (ix2 (edge t r) d)) (xi m c (ix2 (edge t r) d)) (ck m c (ix1 (edge t r)))
      (ci m c (ix1 (edge t r))) (ag m c (ix1 (edge t r))) (jArr m c (ix1 (edge t r))) (mkArr m c (ix2 (edge t r) d)) d)

/-- The loss is the sum of the 250 blocks' sums. -/
theorem kloss_blocks : kloss m c = ∑ t : Fin 250, bsum m c t := by
  unfold kloss lossK bsum
  exact total_blocks _ _ _

/-- The same blocks' sums indexed by a natural number (zero past the grid). -/
def bs (n : ℕ) : EReal := if h : n < 250 then bsum m c ⟨n, h⟩ else 0

theorem sum_bs : ∑ k ∈ Finset.range 250, bs m c k = kloss m c := by
  rw [kloss_blocks, Finset.sum_range]
  refine Finset.sum_congr rfl fun t _ => ?_
  unfold bs
  rw [dif_pos t.isLt]

/-! ## One grid point -/

/-- A block's row, read entry by entry, is the specification's loss of that edge: stated over any six blocks whose row r
    holds the edge's values. -/
theorem row_eq (B0 : Vec Ideal S4000x128 .f32) (B1 : Vec Ideal S4000x1 .f32) (B2 : Vec Ideal S4000x1 .i32)
    (B3 : Vec Ideal S4000x128 .i32) (B4 B5 : Vec Ideal S4000x1 .f32) (r : Fin 4000)
    (w sc vck vci va : EReal) (vxk vxi : Fin 128 → EReal) (vj : BitVec 32) (vmk : Fin 128 → BitVec 1)
    (e4 : B4 (ix2 r 0) = w) (e5 : B5 (ix2 r 0) = sc) (e1 : B1 (ix2 r 0) = va - vci) (e2 : B2 (ix2 r 0) = vj)
    (e0 : ∀ d : Fin 128, B0 (ix2 r d) = (vxk d - vxi d) + (vck - vci))
    (e3 : ∀ d : Fin 128, B3 (ix2 r d) = (vmk d).setWidth 32) :
    rowLoss (B4 (ix2 r 0)) (B5 (ix2 r 0)) (fun d =>
        Scalar.select (IntOp.cmpi .ne (B3 (ix2 r d)) 0#32)
          (B0 (ix2 r d) - B1 (ix2 r 0)
            * ((((IntOp.cmpi .eq (BitVec.ofNat 32 d.val) (B2 (ix2 r 0))).setWidth 32).toInt : ℝ) : EReal)) 0)
      = rowLoss w sc (fun d => entryK (vxk d) (vxi d) vck vci va vj (vmk d) d) := by
  rw [e4, e5, e1, e2]
  congr 1
  funext d
  rw [e0 d, e3 d]
  rfl

/-- The long payload of point t's blocks, summed over the block's rows, is block t's sum of losses. -/
theorem point_sum (t : Fin cfg0.N) :
    ∑ r : Fin 4000, k0_pay3 (F := Ideal) (b0 m c t) (b1 m c t) (b2 m c t) (b3 m c t) (b4 m c t) (b5 m c t) (ix2 r 0)
      = bs m c t.val := by
  have ht : t.val < 250 := lt_of_lt_of_eq t.isLt N_0
  unfold bs
  rw [dif_pos ht]
  unfold bsum
  refine Finset.sum_congr rfl fun r _ => ?_
  refine (pay3_apply (b0 m c t) (b1 m c t) (b2 m c t) (b3 m c t) (b4 m c t) (b5 m c t) r).trans ?_
  exact row_eq (b0 m c t) (b1 m c t) (b2 m c t) (b3 m c t) (b4 m c t) (b5 m c t) r
    (wArr m c (ix1 (edge ⟨t.val, ht⟩ r))) (scArr m c (ix1 (edge ⟨t.val, ht⟩ r)))
    (ck m c (ix1 (edge ⟨t.val, ht⟩ r))) (ci m c (ix1 (edge ⟨t.val, ht⟩ r))) (ag m c (ix1 (edge ⟨t.val, ht⟩ r)))
    (fun d => xk m c (ix2 (edge ⟨t.val, ht⟩ r) d)) (fun d => xi m c (ix2 (edge ⟨t.val, ht⟩ r) d))
    (jArr m c (ix1 (edge ⟨t.val, ht⟩ r))) (fun d => mkArr m c (ix2 (edge ⟨t.val, ht⟩ r) d))
    ((blk4_apply m c t r).trans (arr4_apply m c (edgeAt t r)))
    ((blk5_apply m c t r).trans (arr5_apply m c (edgeAt t r)))
    ((blk1_apply m c t r).trans (arr1_apply m c (edgeAt t r)))
    ((blk2_apply m c t r).trans (arr2_apply m c (edgeAt t r)))
    (fun d => (blk0_apply m c t r d).trans (arr0_apply m c (edgeAt t r) d))
    (fun d => (blk3_apply m c t r d).trans (arr3_apply m c (edgeAt t r) d))

/-! ## The accumulator, point by point -/

/-- After point n the accumulator's one entry is the sum of the blocks' sums up to n. -/
theorem outsAt_apply : ∀ (n : ℕ) (h : n < cfg0.N) (y : S1x1.Idx),
    (outsAt0 m c n h : Vec Ideal S1x1 .f32) y = ∑ k ∈ Finset.range (n + 1), bs m c k
  | 0, h, y => by
    have e : outsAt0 m c 0 h
        = k0_pay1 (k0_pay3 (F := Ideal) (b0 m c ⟨0, h⟩) (b1 m c ⟨0, h⟩) (b2 m c ⟨0, h⟩) (b3 m c ⟨0, h⟩) (b4 m c ⟨0, h⟩) (b5 m c ⟨0, h⟩))
            (k0_pay2 (F := Ideal)) :=
      (outsAt0_A m c ⟨0, h⟩ rfl).trans
        (out_A (F := Ideal) c (grid0.coords ⟨0, h⟩) (ms0_0 ⟨0, h⟩) (hs0_0 ⟨0, h⟩) (ms0_1 ⟨0, h⟩) (hs0_1 ⟨0, h⟩)
          (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩)
          (ms0_6 ⟨0, h⟩) (hs0_6 ⟨0, h⟩) ((hcond0_0 ⟨0, h⟩).mpr rfl)
          (b0 m c ⟨0, h⟩) (b1 m c ⟨0, h⟩) (b2 m c ⟨0, h⟩) (b3 m c ⟨0, h⟩) (b4 m c ⟨0, h⟩) (b5 m c ⟨0, h⟩))
    rw [e, pay1_apply, pay2_apply, zero_add, point_sum m c ⟨0, h⟩, Finset.sum_range_one]
  | n + 1, h, y => by
    have hn : n + 1 < 250 := lt_of_lt_of_eq h N_0
    have hB : ¬(⟨n + 1, h⟩ : Fin cfg0.N).val % 250 = 0 := by dsimp only; omega
    have e : outsAt0 m c (n + 1) h
        = k0_pay1 (k0_pay3 (F := Ideal) (b0 m c ⟨n + 1, h⟩) (b1 m c ⟨n + 1, h⟩) (b2 m c ⟨n + 1, h⟩) (b3 m c ⟨n + 1, h⟩)
              (b4 m c ⟨n + 1, h⟩) (b5 m c ⟨n + 1, h⟩))
            (outsAt0 m c n (Nat.lt_of_succ_lt h)) :=
      (outsAt0_B m c ⟨n + 1, h⟩ hB).trans
        (out_B (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
          (ms0_5 ⟨n + 1, h⟩) (hs0_5 ⟨n + 1, h⟩) (ms0_6 ⟨n + 1, h⟩) (hs0_6 ⟨n + 1, h⟩) (fun hh => hB ((hcond0_0 ⟨n + 1, h⟩).mp hh))
          (b0 m c ⟨n + 1, h⟩) (b1 m c ⟨n + 1, h⟩) (b2 m c ⟨n + 1, h⟩) (b3 m c ⟨n + 1, h⟩) (b4 m c ⟨n + 1, h⟩) (b5 m c ⟨n + 1, h⟩)
          (outsAt0 m c n (Nat.lt_of_succ_lt h)))
    rw [e, pay1_apply, point_sum m c ⟨n + 1, h⟩, Finset.sum_range_succ (bs m c) (n + 1)]
    congr 1
    exact outsAt_apply n (Nat.lt_of_succ_lt h) (ix2 0 0)

/-! ## The region's result array -/

/-- The result window's block sits at offset 0 on both axes at every grid point, and has one entry per axis. -/
theorem win6_off : ∀ (t : Fin cfg0.N) (a : Fin 2), win0_6.index t a * main_v46.ty.shape.size a = 0 :=
  (by decide +kernel : ∀ (t : Fin grid0.N) (a : Fin 2), win0_6.index t a * main_v46.ty.shape.size a = 0)

theorem win6_box : ∀ t : Fin cfg0.N,
    (win0_6.index t 0 * win0_6.size 0 = 0 ∧ win0_6.xsize (grid0.coords t) 0 = 1)
      ∧ (win0_6.index t 1 * win0_6.size 1 = 0 ∧ win0_6.xsize (grid0.coords t) 1 = 1) :=
  (by decide +kernel : ∀ t : Fin grid0.N,
    (win0_6.index t 0 * win0_6.size 0 = 0 ∧ win0_6.xsize (grid0.coords t) 0 = 1)
      ∧ (win0_6.index t 1 * win0_6.size 1 = 0 ∧ win0_6.xsize (grid0.coords t) 1 = 1))

/-- The contents the region's result array ends with: the loss, in its one entry. -/
abbrev lossArr : Vec Ideal S1x1 .f32 := fun _ => kloss m c

/-- After the last point the accumulator holds the loss. -/
theorem outsAt_last (h : 249 < cfg0.N) : outsAt0 m c 249 h = lossArr m c :=
  funext fun y => (outsAt_apply m c 249 h y).trans (sum_bs m c)

/-- The one write-back, at the last point, writes the loss: the block is the whole 1×1 array at zero offsets. -/
theorem flushed_eq (t : Fin cfg0.N) (hf : (cfg0.win 6).flush t = true) :
    (dats m 0 c).flushed 6 t = ((cfg0.win 6).blk t).view.read (Elt Ideal) (lossArr m c) := by
  have hl : 249 < cfg0.N := by rw [show cfg0.N = 250 from N_0]; decide
  have h249 : t.val = 249 := by
    have h1 := (flush0_6 t).mp hf
    have h2 : t.val < 250 := lt_of_lt_of_eq t.isLt N_0
    omega
  obtain rfl : t = ⟨249, hl⟩ := Fin.ext h249
  show (cfg0.win 6).cut (grid0.coords ⟨249, hl⟩) ((dats m 0 c).after 6 ⟨249, hl⟩) = _
  rw [after0_6, outsAt_last]
  have hz' : (fun a => win0_6.index ⟨249, hl⟩ a * main_v46.ty.shape.size a) = fun _ => 0 :=
    funext fun a => win6_off ⟨249, hl⟩ a
  exact (Memref.read_access_unit_zero (Elt Ideal) main_v46 hz' (fun a => by rw [congrFun hz' a]; simp) (lossArr m c)).symm

/-- So the region's result array ends holding the loss. -/
theorem final_out : outArr m c = lossArr m c := by
  have hl : 249 < cfg0.N := by rw [show cfg0.N = 250 from N_0]; decide
  refine (dats m 0 c).arrAt_eq_of_cover 6 (lossArr m c) (flushed_eq m c) fun i => ⟨⟨249, hl⟩, (flush0_6 _).mpr rfl, ?_⟩
  show i ∈ ((View.whole main_v46).slice (win0_6.rect ⟨249, hl⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_6.index ⟨249, hl⟩ 0 * win0_6.size 0 ≤ (i 0 : Nat)
      ∧ (i 0 : Nat) < win0_6.index ⟨249, hl⟩ 0 * win0_6.size 0 + win0_6.xsize (grid0.coords ⟨249, hl⟩) 0
    rw [(win6_box ⟨249, hl⟩).1.1, (win6_box ⟨249, hl⟩).1.2]
    omega
  | ⟨1, _⟩ =>
    show win0_6.index ⟨249, hl⟩ 1 * win0_6.size 1 ≤ (i 1 : Nat)
      ∧ (i 1 : Nat) < win0_6.index ⟨249, hl⟩ 1 * win0_6.size 1 + win0_6.xsize (grid0.coords ⟨249, hl⟩) 1
    rw [(win6_box ⟨249, hl⟩).2.1, (win6_box ⟨249, hl⟩).2.2]
    omega

/-! ## The run -/

/-- The program's result: the loss plus the two norms. -/
abbrev result : Buf (Elt Ideal) ((c.tc : Thread nD τ).loc main_v51) :=
  fun _ => (kloss m c + normC m c ix0) + normA m c ix0

/-- Every weakly fair execution of the program ends with its result buffer at the loss plus the two norms and its
    arguments as launched. -/
theorem run : θ_run defs (onTc (τ := τ) (main (F := Ideal))) ⟨m, fun _ => 0, ρ⟩ fun r => ∀ c : Dev nD,
      r.2.mem ((c.tc : Thread nD τ).loc main_v51) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v51 (Pipeline.mem_restRefs_of main_v51 (by decide) (by decide))).trans
        ((tail_v51 m c).trans (by rw [final_out])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.HandValue

end
-- ==== Proof.LibIndexedRows.lean ====
/-
  ROWS BY INDEX. jnp's `x[idx]` over the rows of a matrix and its transpose, the segment sum `zeros.at[idx].add(v)`,
  print as a `stablehlo.gather` / `stablehlo.scatter` whose start indices are an [E × 1] column of row numbers. This
  file reads both at ONE element, at any extents: the gather's element (e, k) is the table's row `clamp (idx e)` at
  column k; the accumulating scatter's element (n, k) is the operand's plus the sum of the updates (e, k) over the
  positions e whose index, read signed, is n (an index outside [0, N) lands nowhere). The rank-1 scatter (a count
  or a sum of scalars per segment) is read the same way.
-/
import Idealize.ShloMosaic.Lib.ValueIdx
import Idealize.ShloMosaic.PureOps.Contract

noncomputable section

open scoped BigOperators

namespace Idealize.ShloMosaic.IndexedRows

open Idealize.ShloMosaic Idealize.ShloMosaic.ValueIdx

/-! ## Lists of axes with one entry -/

/-- A list with the one entry `x` reads `x` at every position it has. -/
theorem getElem_of_eq_singleton {α : Type} {l : List α} {x : α} (hl : l = [x]) (i : Nat) (h : i < l.length) : l[i] = x := by
  subst hl
  have hi : i = 0 := by simpa using h
  subst hi; rfl

/-- Of a rank-2 shape's two axes, the ones other than axis 0 are axis 1 alone. -/
theorem kept_zero (f : Fin 2 → Nat) : Shape.kept ⟨2, f⟩ [0] = [1] := by
  show (List.finRange 2).filter (· ∉ ([0] : List (Fin 2))) = [1]
  decide

/-- Of a rank-2 shape's two axes, the ones other than axis 1 are axis 0 alone. -/
theorem kept_one (f : Fin 2 → Nat) : Shape.kept ⟨2, f⟩ [1] = [0] := by
  show (List.finRange 2).filter (· ∉ ([1] : List (Fin 2))) = [0]
  decide

/-- A rank-2 index read at an axis that is axis 0 has the value of its first coordinate. -/
theorem val_at_zero {n0 n1 : Nat} (j : (⟨2, ![n0, n1]⟩ : Shape).Idx) (X : Fin 2) (hX : X = 0) : (j X).val = (j 0).val := by
  subst hX; rfl

/-- A rank-2 index read at an axis that is axis 1 has the value of its second coordinate. -/
theorem val_at_one {n0 n1 : Nat} (j : (⟨2, ![n0, n1]⟩ : Shape).Idx) (X : Fin 2) (hX : X = 1) : (j X).val = (j 1).val := by
  subst hX; rfl

/-! ## Where an update lands, at any shapes -/

/-- An update lands at operand index `i` exactly when, on every axis, its start (read signed) plus its window
    coordinate is `i`'s coordinate: a sum that is negative or past the axis's size is no coordinate of any index. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := (h a).1
      simp only at h1
      omega
    · intro hf
      funext a
      apply Fin.ext
      have h1 := hf a
      have h2 := (h a).1
      show (d.start j idx a + (d.window j a : ℤ)).toNat = (i a).val
      omega
  · rename_i h
    constructor
    · intro hf; exact absurd hf (by simp)
    · intro hf
      exfalso; apply h; intro a
      have h1 := hf a
      have h2 := (i a).isLt
      omega

/-! ## The scatter over rows -/

section ScatterRows
variable {N D E w : Nat} (d : ScatterDims ⟨2, ![N, D]⟩ ⟨2, ![E, 1]⟩ ⟨2, ![E, D]⟩)

/-- The scatter-indices position update (e, k') reads its one start component at: row e of the column. -/
theorem siIdx_rows (huw : d.updateWindowDims = [1]) (hivd : d.indexVectorDim = 1)
    (j : (⟨2, ![E, D]⟩ : Shape).Idx) (c : Fin d.scatterDimsToOperandDims.length) (hc : c.val = 0) :
    d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; exact kept_one _
    exact val_at_zero j _ (getElem_of_eq_singleton hus _ _)
  | ⟨1, _⟩ =>
    unfold ScatterDims.siIdx
    rw [dif_pos (by rw [hivd])]
    apply Fin.ext
    exact hc

/-- On the row axis an update's start is its position's index word, read signed. -/
theorem start_row (huw : d.updateWindowDims = [1]) (hsd : d.scatterDimsToOperandDims = [0]) (hivd : d.indexVectorDim = 1)
    (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [hsd]; exact List.mem_singleton.mpr rfl
  unfold ScatterDims.start
  rw [dif_pos hm, siIdx_rows d huw hivd j _ (by
    show List.idxOf (0 : Fin 2) d.scatterDimsToOperandDims = 0
    rw [hsd]; simp)]
  rfl

/-- On the column axis an update's start is 0: the start index names the row axis only. -/
theorem start_col (hsd : d.scatterDimsToOperandDims = [0]) (j : (⟨2, ![E, D]⟩ : Shape).Idx) (idx : IVec ⟨2, ![E, 1]⟩ w) :
    d.start j idx 1 = 0 := by
  have hm : (1 : Fin 2) ∉ d.scatterDimsToOperandDims := by
    rw [hsd]; show (1 : Fin 2) ∉ ([0] : List (Fin 2)); decide
  unfold ScatterDims.start
  rw [dif_neg hm]

/-- On the row axis an update's window coordinate is 0: the row axis is inserted. -/
theorem window_row (hiw : d.insertedWindowDims = [0]) (j : (⟨2, ![E, D]⟩ : Shape).Idx) : d.window j 0 = 0 := by
  have hm : (0 : Fin 2) ∉ d.sKept := by
    show (0 : Fin 2) ∉ Shape.kept _ d.insertedWindowDims
    rw [hiw, kept_zero]; show (0 : Fin 2) ∉ ([1] : List (Fin 2)); decide
  unfold ScatterDims.window
  rw [dif_neg hm]

/-- On the column axis an update's window coordinate is its own column. -/
theorem window_col (huw : d.updateWindowDims = [1]) (hiw : d.insertedWindowDims = [0]) (j : (⟨2, ![E, D]⟩ : Shape).Idx) :
    d.window j 1 = (j 1).val := by
  have hm : (1 : Fin 2) ∈ d.sKept := by
    show (1 : Fin 2) ∈ Shape.kept _ d.insertedWindowDims
    rw [hiw, kept_zero]; exact List.mem_singleton.mpr rfl
  unfold ScatterDims.window
  rw [dif_pos hm]
  exact val_at_one j _ (getElem_of_eq_singleton huw _ _)

/-- WHERE A ROW UPDATE LANDS. Update (e, k') lands at operand element (n, k) exactly when position e's index word, read
    signed, is n, and k' is k: the column is carried over unchanged and is always inside, so only the row can miss. -/
theorem resultIdx?_rows (huw : d.updateWindowDims = [1]) (hiw : d.insertedWindowDims = [0])
    (hsd : d.scatterDimsToOperandDims = [0]) (hivd : d.indexVectorDim = 1) (idx : IVec ⟨2, ![E, 1]⟩ w)
    (e : Fin E) (k' : Fin D) (n : Fin N) (k : Fin D) :
    d.resultIdx? (ix2 e k') idx = some (ix2 n k) ↔ (idx (ix2 e 0)).toInt = (n.val : ℤ) ∧ k' = k := by
  rw [resultIdx?_eq_some_iff, Fin.forall_fin_two, start_row d huw hsd hivd, start_col d hsd, window_row d hiw,
    window_col d huw hiw]
  show (idx (ix2 e 0)).toInt + ((0 : ℕ) : ℤ) = (n.val : ℤ) ∧ (0 : ℤ) + ((k'.val : ℕ) : ℤ) = (k.val : ℤ) ↔ _
  rw [Fin.ext_iff]
  omega

/-- THE SEGMENT SUM OVER ROWS, at the ideal instance: element (n, k) of the accumulating scatter is the operand's plus the
    sum of the updates (e, k) over the positions e whose index word, read signed, is n. -/
theorem scatterAdd_rows (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd d x idx upd (ix2 n k)
      = x (ix2 n k) + ∑ e ∈ Finset.univ.filter (fun e : Fin E => (idx (ix2 e 0)).toInt = (n.val : ℤ)), upd (ix2 e k) := by
  unfold Ideal.hostScatterAdd
  congr 1
  have hP : ∀ j : (⟨2, ![E, D]⟩ : Shape).Idx,
      d.resultIdx? j idx = some (ix2 n k) ↔ (idx (ix2 (j 0) 0)).toInt = (n.val : ℤ) ∧ j 1 = k := fun j => by
    conv_lhs => rw [eq_ix2 j]
    exact resultIdx?_rows d huw hiw hsd hivd idx (j 0) (j 1) n k
  refine Finset.sum_bij' (fun j _ => j 0) (fun e _ => ix2 e k) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP _).2 ⟨(Finset.mem_filter.1 he).2, rfl⟩⟩
  · intro j hj
    have hk := ((hP j).1 (Finset.mem_filter.1 hj).2).2
    rw [← hk]; exact (eq_ix2 j).symm
  · intro e _; rfl
  · intro j hj
    have hk := ((hP j).1 (Finset.mem_filter.1 hj).2).2
    rw [← hk]; exact congrArg upd (eq_ix2 j)

/-- The same at the operator a program prints, `Host.scatterAdd` read at the ideal instance. -/
theorem host_scatterAdd_rows {φ : FTy} (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![E, 1]⟩ w) (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e 0)).toInt = (n.val : ℤ)), upd (ix2 e k) :=
  scatterAdd_rows d huw hiw hsd hivd x idx upd n k

end ScatterRows

/-! ## The scatter over a vector's entries -/

section ScatterVec
variable {N E w : Nat} (d : ScatterDims ⟨1, ![N]⟩ ⟨2, ![E, 1]⟩ ⟨1, ![E]⟩)

/-- Of a rank-1 shape's one axis, none is left other than axis 0. -/
theorem kept_only (f : Fin 1 → Nat) : Shape.kept ⟨1, f⟩ [0] = [] := by
  show (List.finRange 1).filter (· ∉ ([0] : List (Fin 1))) = []
  decide

/-- A rank-1 index read at any axis has the value of its one coordinate. -/
theorem val_at_only {n0 : Nat} (j : (⟨1, ![n0]⟩ : Shape).Idx) (X : Fin 1) : (j X).val = (j 0).val := by
  obtain rfl : X = 0 := Subsingleton.elim _ _
  rfl

/-- The scatter-indices position update e reads its one start component at: row e of the column. -/
theorem siIdx_vec (hivd : d.indexVectorDim = 1) (j : (⟨1, ![E]⟩ : Shape).Idx)
    (c : Fin d.scatterDimsToOperandDims.length) (hc : c.val = 0) : d.siIdx j c = ix2 (j 0) 0 := by
  funext b
  match b with
  | ⟨0, _⟩ =>
    unfold ScatterDims.siIdx
    rw [dif_neg (by rw [hivd]; simp)]
    unfold ScatterDims.siCoord
    apply Fin.ext
    simp only [Fin.val_cast]
    exact val_at_only j _
  | ⟨1, _⟩ =>
    unfold ScatterDims.siIdx
    rw [dif_pos (by rw [hivd])]
    apply Fin.ext
    exact hc

/-- An entry update's start is its position's index word, read signed. -/
theorem start_vec (hsd : d.scatterDimsToOperandDims = [0]) (hivd : d.indexVectorDim = 1)
    (j : (⟨1, ![E]⟩ : Shape).Idx) (idx : IVec ⟨2, ![E, 1]⟩ w) :
    d.start j idx 0 = (idx (ix2 (j 0) 0)).toInt := by
  have hm : (0 : Fin 1) ∈ d.scatterDimsToOperandDims := by rw [hsd]; exact List.mem_singleton.mpr rfl
  unfold ScatterDims.start
  rw [dif_pos hm, siIdx_vec d hivd j _ (by
    show List.idxOf (0 : Fin 1) d.scatterDimsToOperandDims = 0
    rw [hsd]; simp)]
  rfl

/-- An entry update has no window: its window coordinate is 0. -/
theorem window_vec (hiw : d.insertedWindowDims = [0]) (j : (⟨1, ![E]⟩ : Shape).Idx) : d.window j 0 = 0 := by
  have hm : (0 : Fin 1) ∉ d.sKept := by
    show (0 : Fin 1) ∉ Shape.kept _ d.insertedWindowDims
    rw [hiw, kept_only]; exact List.not_mem_nil
  unfold ScatterDims.window
  rw [dif_neg hm]

/-- WHERE AN ENTRY UPDATE LANDS. Update e lands at operand entry n exactly when position e's index word, read signed, is n. -/
theorem resultIdx?_vec (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : ℤ) := by
  rw [resultIdx?_eq_some_iff, Fin.forall_fin_one, start_vec d hsd hivd, window_vec d hiw]
  show (idx (ix2 e 0)).toInt + ((0 : ℕ) : ℤ) = (n.val : ℤ) ↔ _
  omega

/-- THE SEGMENT SUM OF SCALARS (a count, when the updates are ones), at the ideal instance: entry n of the accumulating
    scatter is the operand's plus the sum of the updates e over the positions e whose index word, read signed, is n. -/
theorem scatterAdd_vec (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e ∈ Finset.univ.filter (fun e : Fin E => (idx (ix2 e 0)).toInt = (n.val : ℤ)), upd (ix1 e) := by
  unfold Ideal.hostScatterAdd
  congr 1
  have hP : ∀ j : (⟨1, ![E]⟩ : Shape).Idx,
      d.resultIdx? j idx = some (ix1 n) ↔ (idx (ix2 (j 0) 0)).toInt = (n.val : ℤ) := fun j => by
    conv_lhs => rw [eq_ix1 j]
    exact resultIdx?_vec d hiw hsd hivd idx (j 0) n
  refine Finset.sum_bij' (fun j _ => j 0) (fun e _ => ix1 e) ?_ ?_ ?_ ?_ ?_
  · intro j hj
    exact Finset.mem_filter.2 ⟨Finset.mem_univ _, (hP j).1 (Finset.mem_filter.1 hj).2⟩
  · intro e he
    exact Finset.mem_filter.2 ⟨Finset.mem_univ _, (hP _).2 (Finset.mem_filter.1 he).2⟩
  · intro j _; exact (eq_ix1 j).symm
  · intro e _; rfl
  · intro j _; exact congrArg upd (eq_ix1 j)

/-- The same at the operator a program prints, `Host.scatterAdd` read at the ideal instance. -/
theorem host_scatterAdd_vec {φ : FTy} (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) :=
  scatterAdd_vec d hiw hsd hivd x idx upd n

end ScatterVec

/-! ## The gather of rows -/

section GatherRows
variable {α : Type} {N D E w : Nat} (d : GatherDims ⟨2, ![N, D]⟩ ⟨2, ![E, 1]⟩ ⟨2, ![E, D]⟩)

/-- The start-indices position result element (e, k) reads its one start component at: row e of the column. -/
theorem gather_siIdx_rows (hoff : d.offsetDims = [1]) (hivd : d.indexVectorDim = 1)
    (j : (⟨2, ![E, D]⟩ : Shape).Idx) (c : Fin d.startIndexMap.length) (hc : c.val = 0) :
    d.siIdx j c = ix2 (j 0) 0 := by
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show Shape.kept _ d.offsetDims = [0]
      rw [hoff]; exact kept_one _
    exact val_at_zero j _ (getElem_of_eq_singleton hbd _ _)
  | ⟨1, _⟩ =>
    unfold GatherDims.siIdx
    rw [dif_pos (by rw [hivd])]
    apply Fin.ext
    exact hc

/-- THE GATHER OF ROWS. jnp's `x[idx]` over the rows of an [N × D] table prints as a gather whose start indices are the
    [E × 1] column of row numbers, the row axis collapsed and start-indexed, the column axis the result's one offset axis
    at its full width, no batching axes, the index vector on axis 1. Result element (e, k) is the table at column k of the
    row position e names, its index word read SIGNED and CLAMPED into [0, N − 1]: a negative index reads row 0, one past
    the end reads the last row. -/
theorem gather_rows (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![E, 1]⟩ w) (e : Fin E) (k : Fin D) (hN : 0 < N) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, gather_siIdx_rows d hoff hivd _ _ (by
      show List.idxOf (0 : Fin 2) d.startIndexMap = 0
      rw [hsim]; simp)]
    show min (idx (ix2 e 0)).toInt.toNat (N - d.sliceSizes 0) = min (idx (ix2 e 0)).toInt.toNat (N - 1)
    rw [hsl]
  | ⟨1, _⟩ =>
    apply Fin.ext
    have hk : (1 : Fin 2) ∈ d.sKept := by
      rw [GatherDims.mem_sKept, hcoll, hob]
      exact ⟨by show (1 : Fin 2) ∉ ([0] : List (Fin 2)); decide, List.not_mem_nil⟩
    have hm : (1 : Fin 2) ∉ d.startIndexMap := by
      rw [hsim]; show (1 : Fin 2) ∉ ([0] : List (Fin 2)); decide
    show d.start (ix2 e k) idx 1 + d.batchCoord (ix2 e k) 1 + d.offCoord (ix2 e k) 1 = k.val
    rw [GatherDims.batchCoord_eq_zero _ _ _ (hb 1)]
    unfold GatherDims.start GatherDims.offCoord
    rw [dif_neg hm, dif_pos hk]
    simp only [Nat.zero_add]
    exact val_at_one (ix2 e k) _ (getElem_of_eq_singleton hoff _ _)

end GatherRows

/-! ## Axiom pins -/

/-- info: 'Idealize.ShloMosaic.IndexedRows.resultIdx?_eq_some_iff' depends on axioms: [propext, Classical.choice, Quot.sound] -/
#guard_msgs (whitespace := lax) in #print axioms resultIdx?_eq_some_iff
/-- info: 'Idealize.ShloMosaic.IndexedRows.resultIdx?_rows' depends on axioms: [propext, Classical.choice, Quot.sound] -/
#guard_msgs (whitespace := lax) in #print axioms resultIdx?_rows
/-- info: 'Idealize.ShloMosaic.IndexedRows.scatterAdd_rows' depends on axioms: [propext, Classical.choice, Quot.sound] -/
#guard_msgs (whitespace := lax) in #print axioms scatterAdd_rows
/-- info: 'Idealize.ShloMosaic.IndexedRows.host_scatterAdd_rows' depends on axioms: [propext, Classical.choice, Quot.sound] -/
#guard_msgs (whitespace := lax) in #print axioms host_scatterAdd_rows
/-- info: 'Idealize.ShloMosaic.IndexedRows.resultIdx?_vec' depends on axioms: [propext, Classical.choice, Quot.sound] -/
#guard_msgs (whitespace := lax) in #print axioms resultIdx?_vec
/-- info: 'Idealize.ShloMosaic.IndexedRows.scatterAdd_vec' depends on axioms: [propext, Classical.choice, Quot.sound] -/
#guard_msgs (whitespace := lax) in #print axioms scatterAdd_vec
/-- info: 'Idealize.ShloMosaic.IndexedRows.host_scatterAdd_vec' depends on axioms: [propext, Classical.choice, Quot.sound] -/
#guard_msgs (whitespace := lax) in #print axioms host_scatterAdd_vec
/-- info: 'Idealize.ShloMosaic.IndexedRows.gather_rows' depends on axioms: [propext, Classical.choice, Quot.sound] -/
#guard_msgs (whitespace := lax) in #print axioms gather_rows

end Idealize.ShloMosaic.IndexedRows

end
-- ==== Proof.LibScatterPairVec.lean ====
/-
  ONE PAIR PER UPDATE. jnp's `a.at[rows, cols].add(v)` over an [N × M] array, with two index vectors of length E, prints as
  a `stablehlo.scatter` whose start indices are an [E × 2] array of (row, column) pairs: both operand axes inserted and
  start-indexed, the update a vector of E scalars with no window axis, the body an `add`. This file reads that
  accumulating scatter at ONE element, at any extents: update e lands at (n, c) exactly when its pair, read signed, is
  (n, c) (a pair outside the operand lands nowhere), and element (n, c) of the result is the operand's plus the sum of
  the updates whose pair is (n, c). When the rows are the positions themselves (`jnp.arange`) at most one update lands on
  an element: row n's, and only in the column that row's second component names.
-/
import Idealize.ShloMosaic.Lib.ValueIdx
import Idealize.ShloMosaic.PureOps.Contract
import proofs.«411161_j77043123355910_2_alg».proof.Proof.LibIndexedRows

noncomputable section

open scoped BigOperators

namespace Idealize.ShloMosaic.ScatterPairVec

open Idealize.ShloMosaic Idealize.ShloMosaic.ValueIdx

/-! ## Lists of axes -/

/-- Of a rank-2 shape's two axes, with both taken out none is left. -/
theorem kept_both (f : Fin 2 → Nat) : Shape.kept ⟨2, f⟩ [0, 1] = [] := by
  show (List.finRange 2).filter (· ∉ ([0, 1] : List (Fin 2))) = []
  decide

/-! ## Where an update lands -/

section
variable {N M E w : Nat} (d : ScatterDims ⟨2, ![N, M]⟩ ⟨2, ![E, 2]⟩ ⟨1, ![E]⟩)

/-- The index-array position update e reads component `c` of its pair at: (e, c). -/
theorem siIdx_pair (hivd : d.indexVectorDim = 1) (j : (⟨1, ![E]⟩ : Shape).Idx)
    (c : Fin d.scatterDimsToOperandDims.length) (c2 : Fin 2) (hc : c.val = c2.val) : d.siIdx j c = ix2 (j 0) c2 := by
  funext b
  match b with
  | ⟨0, _⟩ =>
    unfold ScatterDims.siIdx
    rw [dif_neg (by rw [hivd]; simp)]
    unfold ScatterDims.siCoord
    apply Fin.ext
    simp only [Fin.val_cast]
    exact IndexedRows.val_at_only j _
  | ⟨1, _⟩ =>
    unfold ScatterDims.siIdx
    rw [dif_pos (by rw [hivd])]
    apply Fin.ext
    exact hc

/-- On the row axis an update's start is the first component of its pair, read signed. -/
theorem start_row (hsd : d.scatterDimsToOperandDims = [0, 1]) (hivd : d.indexVectorDim = 1)
    (j : (⟨1, ![E]⟩ : Shape).Idx) (idx : IVec ⟨2, ![E, 2]⟩ w) : d.start j idx 0 = (idx (ix2 (j 0) 0)).toInt := by
  have hm : (0 : Fin 2) ∈ d.scatterDimsToOperandDims := by
    rw [hsd]; show (0 : Fin 2) ∈ ([0, 1] : List (Fin 2)); decide
  unfold ScatterDims.start
  rw [dif_pos hm, siIdx_pair d hivd j _ 0 (by
    show List.idxOf (0 : Fin 2) d.scatterDimsToOperandDims = 0
    rw [hsd]; rfl)]
  rfl

/-- On the column axis an update's start is the second component of its pair, read signed. -/
theorem start_col (hsd : d.scatterDimsToOperandDims = [0, 1]) (hivd : d.indexVectorDim = 1)
    (j : (⟨1, ![E]⟩ : Shape).Idx) (idx : IVec ⟨2, ![E, 2]⟩ w) : d.start j idx 1 = (idx (ix2 (j 0) 1)).toInt := by
  have hm : (1 : Fin 2) ∈ d.scatterDimsToOperandDims := by
    rw [hsd]; show (1 : Fin 2) ∈ ([0, 1] : List (Fin 2)); decide
  unfold ScatterDims.start
  rw [dif_pos hm, siIdx_pair d hivd j _ 1 (by
    show List.idxOf (1 : Fin 2) d.scatterDimsToOperandDims = 1
    rw [hsd]; rfl)]
  rfl

/-- On both axes an update's window coordinate is 0: both operand axes are inserted. -/
theorem window_pair (hiw : d.insertedWindowDims = [0, 1]) (j : (⟨1, ![E]⟩ : Shape).Idx) (a : Fin 2) : d.window j a = 0 := by
  have hm : a ∉ d.sKept := by
    show a ∉ Shape.kept _ d.insertedWindowDims
    rw [hiw, kept_both]; exact List.not_mem_nil
  unfold ScatterDims.window
  rw [dif_neg hm]

/-- WHERE AN UPDATE LANDS. Update e lands at operand element (n, c) exactly when its index pair, read signed, is (n, c). -/
theorem resultIdx?_pair (hiw : d.insertedWindowDims = [0, 1]) (hsd : d.scatterDimsToOperandDims = [0, 1])
    (hivd : d.indexVectorDim = 1) (idx : IVec ⟨2, ![E, 2]⟩ w) (e : Fin E) (n : Fin N) (c : Fin M) :
    d.resultIdx? (ix1 e) idx = some (ix2 n c) ↔
      (idx (ix2 e 0)).toInt = (n.val : ℤ) ∧ (idx (ix2 e 1)).toInt = (c.val : ℤ) := by
  rw [IndexedRows.resultIdx?_eq_some_iff, Fin.forall_fin_two, start_row d hsd hivd, start_col d hsd hivd,
    window_pair d hiw, window_pair d hiw]
  show (idx (ix2 e 0)).toInt + ((0 : ℕ) : ℤ) = (n.val : ℤ) ∧ (idx (ix2 e 1)).toInt + ((0 : ℕ) : ℤ) = (c.val : ℤ) ↔ _
  omega

/-- THE ACCUMULATING SCATTER OVER PAIRS, at the ideal instance: element (n, c) is the operand's plus the sum of the updates
    e over the positions whose pair, read signed, is (n, c). -/
theorem scatterAdd_pair (hiw : d.insertedWindowDims = [0, 1]) (hsd : d.scatterDimsToOperandDims = [0, 1])
    (hivd : d.indexVectorDim = 1) (x : (⟨2, ![N, M]⟩ : Shape).Idx → EReal) (idx : IVec ⟨2, ![E, 2]⟩ w)
    (upd : (⟨1, ![E]⟩ : Shape).Idx → EReal) (n : Fin N) (c : Fin M) :
    Ideal.hostScatterAdd d x idx upd (ix2 n c)
      = x (ix2 n c) + ∑ e ∈ Finset.univ.filter (fun e : Fin E =>
          (idx (ix2 e 0)).toInt = (n.val : ℤ) ∧ (idx (ix2 e 1)).toInt = (c.val : ℤ)), upd (ix1 e) := by
  unfold Ideal.hostScatterAdd
  congr 1
  have hP : ∀ j : (⟨1, ![E]⟩ : Shape).Idx, d.resultIdx? j idx = some (ix2 n c) ↔
      (idx (ix2 (j 0) 0)).toInt = (n.val : ℤ) ∧ (idx (ix2 (j 0) 1)).toInt = (c.val : ℤ) := fun j => by
    conv_lhs => rw [eq_ix1 j]
    exact resultIdx?_pair d hiw hsd hivd idx (j 0) n c
  refine Finset.sum_bij' (fun j _ => j 0) (fun e _ => ix1 e) ?_ ?_ ?_ ?_ ?_
  · intro j hj
    exact Finset.mem_filter.2 ⟨Finset.mem_univ _, (hP j).1 (Finset.mem_filter.1 hj).2⟩
  · intro e he
    exact Finset.mem_filter.2 ⟨Finset.mem_univ _, (hP _).2 (Finset.mem_filter.1 he).2⟩
  · intro j _; exact (eq_ix1 j).symm
  · intro e _; rfl
  · intro j _; exact congrArg upd (eq_ix1 j)

/-- The same at the operator a program prints, `Host.scatterAdd` read at the ideal instance. -/
theorem host_scatterAdd_pair {φ : FTy} (hiw : d.insertedWindowDims = [0, 1]) (hsd : d.scatterDimsToOperandDims = [0, 1])
    (hivd : d.indexVectorDim = 1) (x : FVec Ideal ⟨2, ![N, M]⟩ φ) (idx : IVec ⟨2, ![E, 2]⟩ w)
    (upd : FVec Ideal ⟨1, ![E]⟩ φ) (n : Fin N) (c : Fin M) :
    Host.scatterAdd (F := Ideal) d x idx upd (ix2 n c)
      = x (ix2 n c) + ∑ e ∈ Finset.univ.filter (fun e : Fin E =>
          (idx (ix2 e 0)).toInt = (n.val : ℤ) ∧ (idx (ix2 e 1)).toInt = (c.val : ℤ)), upd (ix1 e) :=
  scatterAdd_pair d hiw hsd hivd x idx upd n c

end

/-! ## Rows that are the positions themselves -/

section
variable {M E w : Nat} (d : ScatterDims ⟨2, ![E, M]⟩ ⟨2, ![E, 2]⟩ ⟨1, ![E]⟩)

/-- `a.at[arange(E), cols].add(v)`: when every pair's row component is its own position, element (n, c) is the operand's
    plus update n if row n's column component is c, and the operand's alone if it is not. -/
theorem host_scatterAdd_pair_diag {φ : FTy} (hiw : d.insertedWindowDims = [0, 1]) (hsd : d.scatterDimsToOperandDims = [0, 1])
    (hivd : d.indexVectorDim = 1) (x : FVec Ideal ⟨2, ![E, M]⟩ φ) (idx : IVec ⟨2, ![E, 2]⟩ w)
    (upd : FVec Ideal ⟨1, ![E]⟩ φ) (hrow : ∀ e : Fin E, (idx (ix2 e 0)).toInt = (e.val : ℤ)) (n : Fin E) (c : Fin M) :
    Host.scatterAdd (F := Ideal) d x idx upd (ix2 n c)
      = x (ix2 n c) + (if (idx (ix2 n 1)).toInt = (c.val : ℤ) then upd (ix1 n) else 0) := by
  rw [host_scatterAdd_pair d hiw hsd hivd]
  congr 1
  rw [Finset.sum_filter, Finset.sum_eq_single n]
  · by_cases hc : (idx (ix2 n 1)).toInt = (c.val : ℤ)
    · rw [if_pos ⟨hrow n, hc⟩, if_pos hc]
    · rw [if_neg (fun h => hc h.2), if_neg hc]
  · intro e _ hne
    rw [if_neg]
    intro h
    apply hne
    apply Fin.ext
    have := hrow e
    omega
  · intro h; exact absurd (Finset.mem_univ n) h

end

end Idealize.ShloMosaic.ScatterPairVec

end
-- ==== Proof.RefValue.lean ====
/-
  THE REFERENCE'S RESULT as a function of the arguments, at the ideal instance: the sum over the edges of each edge's
  loss — its entries `((xk + ck) − xi) − ci`, with `−(a − ci)` added at the edge's column (the accumulating scatter over
  (edge, column) pairs lands one update per edge, in that edge's own row), masked, squared and summed along the row, the
  safe norm taken, times `w · scale` — plus the two Euclidean norms.
-/
import proofs.«411161_j77043123355910_2_alg».proof.Proof.Gen.ReferenceIdeal.Read
import proofs.«411161_j77043123355910_2_alg».proof.Proof.Spec
import proofs.«411161_j77043123355910_2_alg».proof.Proof.LibScatterPairVec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx Cert.EdgeLoss

variable (m : (ℓ : Loc nD τ sig) → Buf (Elt Ideal) ℓ) (c : Dev nD)

/-- An index vector with its negative entries moved up by the extent word `n`. -/
abbrev wrapVec (n : BitVec 32) (v : IVec S1000000 32) : IVec S1000000 32 :=
  select (cmpi .slt v (broadcastInDim S1000000 ![] bcast_S_S1000000 (constantI S_ 32 0#32)))
    (addi v (broadcastInDim S1000000 ![] bcast_S_S1000000 (constantI S_ 32 n))) v

/-- The same as the one-column array of start indices a gather reads. -/
abbrev wrapCol (n : BitVec 32) (v : IVec S1000000 32) : IVec S1000000x1 32 :=
  broadcastInDim S1000000x1 ![0] bcast_S1000000_S1000000x1_0 (wrapVec n v)

abbrev xk : FVec Ideal S1000000x128 .f32 :=
  Host.gather gather_S50000x128_S1000000x1_S1000000x128_1_0_n_n_0_1_1128 (m ((c.tc : Thread nD τ).loc main_arg0))
    (wrapCol 50000#32 (m ((c.tc : Thread nD τ).loc main_arg4)))
abbrev xi : FVec Ideal S1000000x128 .f32 :=
  Host.gather gather_S50000x128_S1000000x1_S1000000x128_1_0_n_n_0_1_1128 (m ((c.tc : Thread nD τ).loc main_arg0))
    (wrapCol 50000#32 (m ((c.tc : Thread nD τ).loc main_arg3)))
abbrev ck : FVec Ideal S1000000 .f32 :=
  Host.gather gather_S50000_S1000000x1_S1000000_n_0_n_n_0_1_1 (m ((c.tc : Thread nD τ).loc main_arg1))
    (wrapCol 50000#32 (m ((c.tc : Thread nD τ).loc main_arg4)))
abbrev ci : FVec Ideal S1000000 .f32 :=
  Host.gather gather_S50000_S1000000x1_S1000000_n_0_n_n_0_1_1 (m ((c.tc : Thread nD τ).loc main_arg1))
    (wrapCol 50000#32 (m ((c.tc : Thread nD τ).loc main_arg3)))
abbrev ag : FVec Ideal S1000000 .f32 :=
  Host.gather gather_S1000000_S1000000x1_S1000000_n_0_n_n_0_1_1 (m ((c.tc : Thread nD τ).loc main_arg2))
    (wrapCol 1000000#32 (m ((c.tc : Thread nD τ).loc main_arg6)))
abbrev normC : FVec Ideal S_ .f32 :=
  Host.sqrt (Host.reduceAdd (mulf (m ((c.tc : Thread nD τ).loc main_arg1)) (m ((c.tc : Thread nD τ).loc main_arg1)))
    (constant S_ .f32 0x00000000#32) reducesTo_S50000_S_d0 h_S_)
abbrev normA : FVec Ideal S_ .f32 :=
  Host.sqrt (Host.reduceAdd (mulf (m ((c.tc : Thread nD τ).loc main_arg2)) (m ((c.tc : Thread nD τ).loc main_arg2)))
    (constant S_ .f32 0x00000000#32) reducesTo_S1000000_S_d0 h_S_)

/-! ## Positions and indices -/

/-- The positions of a vector are its rank-1 indices. -/
def idxEquiv1 {n : Nat} : (⟨1, ![n]⟩ : Shape).Idx ≃ Fin n where
  toFun j := j 0
  invFun e := ix1 e
  left_inv j := (eq_ix1 j).symm
  right_inv _ := rfl

/-- A sum over a vector's indices is the sum over its positions. -/
theorem sum_idx1 {M : Type*} [AddCommMonoid M] {n : Nat} (f : (⟨1, ![n]⟩ : Shape).Idx → M) :
    ∑ j, f j = ∑ e : Fin n, f (ix1 e) := by
  rw [← Equiv.sum_comp (idxEquiv1 (n := n)).symm f]
  rfl

/-- Entry (e, z) of a one-column array sits at position e of the vector it was made from. -/
theorem col_pos63 (e : Fin 1000000) (z : Fin 1) : Read.idx_main_v63 (ix2 e z) = ix1 e :=
  funext fun a => Fin.ext (by match a with | ⟨0, _⟩ => rfl)

/-- Entry (e, d) of a vector copied along the 128 columns sits at position e of the vector. -/
theorem row_pos15 (e : Fin 1000000) (d : Fin 128) : Read.idx_main_v14 (Read.idx_main_v15 (ix2 e d)) = ix1 e :=
  funext fun a => Fin.ext (by match a with | ⟨0, _⟩ => rfl)
theorem row_pos33 (e : Fin 1000000) (d : Fin 128) : Read.idx_main_v32 (Read.idx_main_v33 (ix2 e d)) = ix1 e :=
  funext fun a => Fin.ext (by match a with | ⟨0, _⟩ => rfl)

/-- Column d of row e. -/
theorem row_col68 (e : Fin 1000000) (d : Fin 128) : Read.idx_main_v68 (ix1 e) d = ix2 e d :=
  funext fun a => Fin.ext (by match a with | ⟨0, _⟩ => rfl | ⟨1, _⟩ => rfl)

/-! ## The (row, column) pairs -/

/-- A position below 2^31 written as a 32-bit word reads back, signed, as itself. -/
theorem toInt_ofNat_small (e : Nat) (he : e < 2147483648) : (BitVec.ofNat 32 e).toInt = (e : ℤ) := by
  rw [BitVec.toInt_eq_toNat_cond, BitVec.toNat_ofNat]
  have : e % 2 ^ 32 = e := Nat.mod_eq_of_lt (by omega)
  rw [this]
  split <;> omega

/-- A position's word is not negative: moving negative words up by the extent leaves it as it is. -/
theorem wrap_pos (e : Fin 1000000) :
    Scalar.select (IntOp.cmpi .slt (BitVec.ofNat 32 e.val) 0#32) (IntOp.addi (BitVec.ofNat 32 e.val) 1000000#32) (BitVec.ofNat 32 e.val)
      = BitVec.ofNat 32 e.val := by
  have h : IntOp.cmpi .slt (BitVec.ofNat 32 e.val) 0#32 = 0#1 := by
    show BitVec.ofBool ((BitVec.ofNat 32 e.val).slt 0#32) = 0#1
    have hs : (BitVec.ofNat 32 e.val).slt 0#32 = false := by
      rw [BitVec.slt_eq_decide, toInt_ofNat_small e.val (by have := e.isLt; omega)]
      simp
    rw [hs]; rfl
  rw [h, select_zero]

section concat
variable {α : Type} (a b : S1000000x1.Idx → α)

/-- Two one-column arrays side by side: the first component of pair e is the first array's entry e. -/
theorem concat_fst (e : Fin 1000000) :
    concatenate S1000000x2 1 [⟨S1000000x1, a⟩, ⟨S1000000x1, b⟩] concatenates_S1000000x1_S1000000x1_S1000000x2_d1 (ix2 e 0)
      = a (ix2 e 0) :=
  concatenate_pair_apply_left (t := S1000000x2) (s₁ := S1000000x1) (s₂ := S1000000x1) (1 : Fin 2) a b
    concatenates_S1000000x1_S1000000x1_S1000000x2_d1 (ix2 e (0 : Fin 2)) rfl (ix2 e (0 : Fin 1))
    (fun k => match k with | ⟨0, _⟩ => rfl | ⟨1, _⟩ => rfl)

/-- … and the second component is the second array's entry e. -/
theorem concat_snd (e : Fin 1000000) :
    concatenate S1000000x2 1 [⟨S1000000x1, a⟩, ⟨S1000000x1, b⟩] concatenates_S1000000x1_S1000000x1_S1000000x2_d1 (ix2 e 1)
      = b (ix2 e 0) :=
  concatenate_pair_apply_right (t := S1000000x2) (s₁ := S1000000x1) (s₂ := S1000000x1) (1 : Fin 2) a b
    concatenates_S1000000x1_S1000000x1_S1000000x2_d1 (ix2 e (1 : Fin 2)) rfl rfl (ix2 e (0 : Fin 1))
    (fun k hk => match k, hk with | ⟨0, _⟩, _ => rfl | ⟨1, _⟩, hk => absurd rfl hk) rfl
end concat

section stages
variable (x0 : (⟨S50000x128, .f32⟩ : BufTy).Contents (Elt Ideal)) (x1 : (⟨S50000, .f32⟩ : BufTy).Contents (Elt Ideal))
  (x2 : (⟨S1000000, .f32⟩ : BufTy).Contents (Elt Ideal)) (x3 x4 x5 x6 : (⟨S1000000, .i32⟩ : BufTy).Contents (Elt Ideal))
  (x7 x8 : (⟨S1000000, .f32⟩ : BufTy).Contents (Elt Ideal)) (x9 : (⟨S1000000x128, .i1⟩ : BufTy).Contents (Elt Ideal))

/-- The row component of pair e, read signed, is e: the scatter's rows are the positions themselves. -/
theorem pair_row (e : Fin 1000000) : (Read.val_main_v64 (F := Ideal) x5 (ix2 e 0)).toInt = (e.val : ℤ) := by
  unfold Read.val_main_v64
  rw [concat_fst, Read.val_main_v62_apply, Read.val_main_v56_apply, Read.val_main_v53_apply, Read.val_main_v55_apply,
    Read.val_main_v50_apply, Read.val_main_v52_apply, Read.val_main_v54_apply, Read.val_main_c_11_apply,
    Read.val_main_c_12_apply]
  show (Scalar.select (IntOp.cmpi .slt (BitVec.ofNat 32 e.val) 0#32) (IntOp.addi (BitVec.ofNat 32 e.val) 1000000#32)
    (BitVec.ofNat 32 e.val)).toInt = _
  rw [wrap_pos, toInt_ofNat_small _ (by have := e.isLt; omega)]

/-- The column component of pair e is the edge's wrapped column word. -/
theorem pair_col (e : Fin 1000000) : Read.val_main_v64 (F := Ideal) x5 (ix2 e 1) = wrapVec 128#32 x5 (ix1 e) := by
  unfold Read.val_main_v64
  rw [concat_snd, Read.val_main_v63_apply]
  show Read.val_main_v61 (F := Ideal) x5 _ = _
  rw [col_pos63 e 0]
  rfl

/-! ## The scatter -/

/-- Entry (e, d) after the scatter: the operand's entry, plus edge e's update where d is the edge's column. -/
theorem scatter_read (e : Fin 1000000) (d : Fin 128) :
    Read.val_main_v65 (F := Ideal) x0 x1 x2 x3 x4 x5 x6 (ix2 e d)
      = Read.val_main_v34 (F := Ideal) x0 x1 x3 x4 (ix2 e d)
        + (if (wrapVec 128#32 x5 (ix1 e)).toInt = (d.val : ℤ) then Read.val_main_v51 (F := Ideal) x1 x2 x3 x6 (ix1 e) else 0) := by
  unfold Read.val_main_v65
  rw [ScatterPairVec.host_scatterAdd_pair_diag scatter_S1000000x128_S1000000x2_S1000000_n_01_01_1 rfl rfl rfl
    (Read.val_main_v34 (F := Ideal) x0 x1 x3 x4) (Read.val_main_v64 (F := Ideal) x5) (Read.val_main_v51 (F := Ideal) x1 x2 x3 x6)
    (pair_row x5) e d, pair_col]

/-! ## One entry, one row, the total -/

/-- The masked entry (e, d) is the specification's entry of the gathered values. -/
theorem entry_read (e : Fin 1000000) (d : Fin 128) :
    Read.val_main_v66 (F := Ideal) x0 x1 x2 x3 x4 x5 x6 x9 (ix2 e d)
      = entryR (Read.val_main_v6 (F := Ideal) x0 x4 (ix2 e d)) (Read.val_main_v23 (F := Ideal) x0 x3 (ix2 e d))
          (Read.val_main_v13 (F := Ideal) x1 x4 (ix1 e)) (Read.val_main_v31 (F := Ideal) x1 x3 (ix1 e))
          (Read.val_main_v41 (F := Ideal) x2 x6 (ix1 e)) (wrapVec 128#32 x5 (ix1 e)) (x9 (ix2 e d)) d := by
  have h48 : Read.val_main_v48 (F := Ideal) x1 x3 = Read.val_main_v31 (F := Ideal) x1 x3 := rfl
  rw [Read.val_main_v66_apply, scatter_read, Read.val_main_call0_v0_apply, Read.val_main_cst_apply,
    Read.val_main_v34_apply, Read.val_main_v24_apply, Read.val_main_v16_apply, Read.val_main_v15_apply,
    Read.val_main_v14_apply, Read.val_main_v33_apply, Read.val_main_v32_apply, Read.val_main_v51_apply,
    Read.val_main_v49_apply, h48]
  unfold entryR
  simp only [Ideal.addf_def, Ideal.subf_def, Ideal.hostNegf_def, Ideal.negf_def, Ideal.ofBits_def, Ideal.ofBits_zero_f32]
  rw [row_pos15, row_pos33]

/-- Edge e's term of the sum is the specification's loss of its row of entries. -/
theorem row_read (e : Fin 1000000) :
    Read.val_main_v75 (F := Ideal) x0 x1 x2 x3 x4 x5 x6 x7 x8 x9 (ix1 e)
      = rowLoss (x7 (ix1 e)) (x8 (ix1 e)) (fun d =>
          entryR (Read.val_main_v6 (F := Ideal) x0 x4 (ix2 e d)) (Read.val_main_v23 (F := Ideal) x0 x3 (ix2 e d))
            (Read.val_main_v13 (F := Ideal) x1 x4 (ix1 e)) (Read.val_main_v31 (F := Ideal) x1 x3 (ix1 e))
            (Read.val_main_v41 (F := Ideal) x2 x6 (ix1 e)) (wrapVec 128#32 x5 (ix1 e)) (x9 (ix2 e d)) d) := by
  have hs : Read.val_main_v68 (F := Ideal) x0 x1 x2 x3 x4 x5 x6 x9 (ix1 e)
      = ∑ d : Fin 128,
          entryR (Read.val_main_v6 (F := Ideal) x0 x4 (ix2 e d)) (Read.val_main_v23 (F := Ideal) x0 x3 (ix2 e d))
            (Read.val_main_v13 (F := Ideal) x1 x4 (ix1 e)) (Read.val_main_v31 (F := Ideal) x1 x3 (ix1 e))
            (Read.val_main_v41 (F := Ideal) x2 x6 (ix1 e)) (wrapVec 128#32 x5 (ix1 e)) (x9 (ix2 e d)) d
          * entryR (Read.val_main_v6 (F := Ideal) x0 x4 (ix2 e d)) (Read.val_main_v23 (F := Ideal) x0 x3 (ix2 e d))
            (Read.val_main_v13 (F := Ideal) x1 x4 (ix1 e)) (Read.val_main_v31 (F := Ideal) x1 x3 (ix1 e))
            (Read.val_main_v41 (F := Ideal) x2 x6 (ix1 e)) (wrapVec 128#32 x5 (ix1 e)) (x9 (ix2 e d)) d := by
    rw [Read.val_main_v68_apply, Read.val_main_cst_15_apply, Ideal.ofBits_def, Ideal.ofBits_zero_f32, zero_add]
    refine Finset.sum_congr rfl fun d _ => ?_
    rw [row_col68, Read.val_main_v67_apply, entry_read, Ideal.mulf_def]
  rw [Read.val_main_v75_apply, Read.val_main_v69_apply, Read.val_main_v74_apply, Read.val_main_v73_apply,
    Read.val_main_v72_apply, Read.val_main_v71_apply, Read.val_main_v70_apply, Read.val_main_cst_16_apply,
    Read.val_main_call1_v1_apply, Read.val_main_call1_v0_apply, Read.val_main_cst_17_apply,
    Read.val_main_call2_v1_apply, Read.val_main_call2_v0_apply, Read.val_main_cst_18_apply, hs]
  unfold rowLoss safeNorm
  simp only [Ideal.mulf_def, Ideal.hostUnary_sqrt_def, Ideal.cmpf_def, Ideal.ofBits_def, Ideal.ofBits_zero_f32]

/-- The sum over the edges is the specification's loss of the gathered arrays. -/
theorem total_read (i : S_.Idx) :
    Read.val_main_v76 (F := Ideal) x0 x1 x2 x3 x4 x5 x6 x7 x8 x9 i
      = lossR (Read.val_main_v6 (F := Ideal) x0 x4) (Read.val_main_v23 (F := Ideal) x0 x3) (Read.val_main_v13 (F := Ideal) x1 x4)
          (Read.val_main_v31 (F := Ideal) x1 x3) (Read.val_main_v41 (F := Ideal) x2 x6) x7 x8 (wrapVec 128#32 x5) x9 := by
  rw [Read.val_main_v76_apply, Read.val_main_cst_19_apply, Ideal.ofBits_def, Ideal.ofBits_zero_f32, zero_add]
  unfold lossR total
  rw [sum_idx1]
  exact Finset.sum_congr rfl fun e _ => row_read x0 x1 x2 x3 x4 x5 x6 x7 x8 x9 e

end stages

/-- The last stage at the run's arguments: the edges' losses summed, plus the two norms. The gathered arrays and the
    norms are the stages' own terms, so nothing of them is opened. -/
theorem stage_value (i : S_.Idx) :
    Read.val_main_v80 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) i
      = (lossR (xk m c) (xi m c) (ck m c) (ci m c) (ag m c)
            (m ((c.tc : Thread nD τ).loc main_arg7)) (m ((c.tc : Thread nD τ).loc main_arg8))
            (wrapVec 128#32 (m ((c.tc : Thread nD τ).loc main_arg5))) (m ((c.tc : Thread nD τ).loc main_arg9))
          + normC m c ix0) + normA m c ix0 := by
  have hxk : Read.val_main_v6 (F := Ideal) (m ((c.tc : Thread nD τ).loc main_arg0)) (m ((c.tc : Thread nD τ).loc main_arg4))
      = xk m c := rfl
  have hxi : Read.val_main_v23 (F := Ideal) (m ((c.tc : Thread nD τ).loc main_arg0)) (m ((c.tc : Thread nD τ).loc main_arg3))
      = xi m c := rfl
  have hck : Read.val_main_v13 (F := Ideal) (m ((c.tc : Thread nD τ).loc main_arg1)) (m ((c.tc : Thread nD τ).loc main_arg4))
      = ck m c := rfl
  have hci : Read.val_main_v31 (F := Ideal) (m ((c.tc : Thread nD τ).loc main_arg1)) (m ((c.tc : Thread nD τ).loc main_arg3))
      = ci m c := rfl
  have hag : Read.val_main_v41 (F := Ideal) (m ((c.tc : Thread nD τ).loc main_arg2)) (m ((c.tc : Thread nD τ).loc main_arg6))
      = ag m c := rfl
  have hC : Read.val_main_v77 (F := Ideal) (m ((c.tc : Thread nD τ).loc main_arg1)) = normC m c := rfl
  have hA : Read.val_main_v79 (F := Ideal) (m ((c.tc : Thread nD τ).loc main_arg2)) = normA m c := rfl
  rw [Read.val_main_v80_apply, Read.val_main_v78_apply, total_read, Ideal.addf_def, Ideal.addf_def,
    hxk, hxi, hck, hci, hag, hC, hA, eq_ix0 i]

/-- THE REFERENCE'S RESULT: the edges' losses summed, plus the two norms. -/
theorem ref_value :
    Cert.ReferenceIdeal.Value.res_out0 (F := Ideal) m c
      = fun _ => (lossR (xk m c) (xi m c) (ck m c) (ci m c) (ag m c)
            (m ((c.tc : Thread nD τ).loc main_arg7)) (m ((c.tc : Thread nD τ).loc main_arg8))
            (wrapVec 128#32 (m ((c.tc : Thread nD τ).loc main_arg5))) (m ((c.tc : Thread nD τ).loc main_arg9))
          + normC m c ix0) + normA m c ix0 := by
  funext i
  exact (congrFun (Read.val_main_v80_eq (F := Ideal) m c) i).trans (stage_value m c i)

end Cert.ReferenceIdeal.RefValue

end
-- ==== Proof.PreDecode.lean ====
/-
  WHAT THE PRECONDITION SAYS, decoded. It is a conjunction of reductions by `and`: every entry of the table, of the biases
  and of the targets' table has absolute value below +∞ — so is a real number —, and every column word, compared signed,
  is at least 0 and below 128.
-/
import proofs.«411161_j77043123355910_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

open scoped BigOperators

namespace Cert.PreFacts

open Cert.Pre_finite_inputs Idealize.ShloMosaic Idealize.ShloMosaic.ValueIdx

/-- The shape with no axes has one index. -/
instance subsingleton_scalar_idx : Subsingleton S_.Idx := ⟨fun a b => funext fun d => d.elim0⟩

/-- The single-precision word 0x7F800000 (exponent all ones, significand zero, sign clear) denotes +∞. -/
theorem ofBits_inf : Ideal.ofBits .f32 0x7F800000#32 = (⊤ : EReal) := by
  simp [Ideal.ofBits, Ideal.ieee]

/-- An extended real whose absolute value max x (-x) is below +∞ is neither -∞ nor +∞: it is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- The comparison |x| < +∞ coming out 1 says that x is a real number. -/
theorem real_of_cmp (x : EReal) (hx : Ideal.cmp .olt (max x (-x)) (Ideal.ofBits .f32 0x7F800000#32) = 1#1) :
    ∃ r : ℝ, x = (r : EReal) := by
  rw [ofBits_inf] at hx
  refine real_of_abs_lt_top x ?_
  simpa [Ideal.cmp, StableHlo.Predicate.ofBool_eq_one_iff] using hx

/-- A conjunction of two one-bit vectors is 1 at an index exactly when both are. -/
theorem andi_at {s : Shape} (a b : IVec s 1) (i : s.Idx) : andi a b i = 1#1 ↔ a i = 1#1 ∧ b i = 1#1 :=
  IntOp.andi_eq_one

/-- The words 0 and 128 read signed. -/
theorem toInt_zero32 : (0#32 : BitVec 32).toInt = 0 := by decide
theorem toInt_128 : (128#32 : BitVec 32).toInt = 128 := by decide

/-- From the precondition's value being all ones: the three float tables are real-valued and the column words are in
    [0, 128). -/
theorem decode (X : FVec Ideal S50000x128 .f32) (C : FVec Ideal S50000 .f32) (A : FVec Ideal S1000000 .f32)
    (ei ek ej et : IVec S1000000 32) (w sc : FVec Ideal S1000000 .f32) (mk : IVec S1000000x128 1)
    (h : fn (F := Ideal) X C A ei ek ej et w sc mk = fun _ => 1#1) :
    (∀ i, ∃ r : ℝ, X i = (r : EReal)) ∧ (∀ i, ∃ r : ℝ, C i = (r : EReal)) ∧ (∀ i, ∃ r : ℝ, A i = (r : EReal))
      ∧ (∀ i, 0 ≤ (ej i).toInt ∧ (ej i).toInt < 128) := by
  have h0 := congrFun h ValueIdx.ix0
  dsimp only [fn, fn_part1] at h0
  -- the value is a conjunction of six reductions by `and`, nested to the left
  obtain ⟨h23, h29⟩ := (andi_at _ _ _).1 h0
  obtain ⟨h18, -⟩ := (andi_at _ _ _).1 h23
  obtain ⟨h13, -⟩ := (andi_at _ _ _).1 h18
  obtain ⟨h8, h12⟩ := (andi_at _ _ _).1 h13
  obtain ⟨h3, h7⟩ := (andi_at _ _ _).1 h8
  refine ⟨fun i => ?_, fun i => ?_, fun i => ?_, fun i => ?_⟩
  · exact real_of_cmp (X i) (Host.reduce_andi_all _ _ _ _ _ h3 i)
  · exact real_of_cmp (C i) (Host.reduce_andi_all _ _ _ _ _ h7 i)
  · exact real_of_cmp (A i) (Host.reduce_andi_all _ _ _ _ _ h12 i)
  · have e := Host.reduce_andi_all _ _ _ _ _ h29 i
    obtain ⟨e25, e27⟩ := (andi_at _ _ _).1 e
    have g0 : (0#32 : BitVec 32).toInt ≤ (ej i).toInt := IntOp.cmpi_sge.1 e25
    have g1 : (ej i).toInt < (128#32 : BitVec 32).toInt := IntOp.cmpi_slt.1 e27
    rw [toInt_zero32] at g0
    rw [toInt_128] at g1
    exact ⟨g0, g1⟩

end Cert.PreFacts

end
-- ==== Proof.Bridge.lean ====
/-
  THE TWO RESULTS ARE ONE. From memories that agree on the ten arguments the two programs gather the same five per-edge
  arrays (the same clamped reads of the same tables at the same wrapped indices) and add the same two norms; under the
  precondition the tables are real-valued, so every gathered value is a real number, and every column word is in [0, 128),
  so the reference's wrapped column word is the column word itself; there the two losses agree (the specification's law).
-/
import proofs.«411161_j77043123355910_2_alg».proof.Defs
import proofs.«411161_j77043123355910_2_alg».proof.Proof.KernelAcc
import proofs.«411161_j77043123355910_2_alg».proof.Proof.RefValue
import proofs.«411161_j77043123355910_2_alg».proof.Proof.PreDecode
import proofs.«411161_j77043123355910_2_alg».proof.Proof.Spec
import Idealize.ShloMosaic.Lib.Pipeline.Value

noncomputable section

open scoped BigOperators

namespace Cert.Bridge

open Idealize.ShloMosaic Idealize.ShloMosaic.TcCoe Idealize.SL.Sem Idealize.ShloMosaic.ValueIdx Cert.EdgeLoss

/-- A wrapped index word whose original is non-negative is the original: the comparison with zero fails. -/
theorem wrap_of_nonneg (n : BitVec 32) (v : IVec Cert.ReferenceIdeal.S1000000 32) (i : Cert.ReferenceIdeal.S1000000.Idx) (h : 0 ≤ (v i).toInt) :
    Cert.ReferenceIdeal.RefValue.wrapVec n v i = v i := by
  have hlt : IntOp.cmpi .slt (v i) 0#32 = 0#1 := by
    show BitVec.ofBool ((v i).slt 0#32) = 0#1
    have : (v i).slt 0#32 = false := by
      rw [BitVec.slt_eq_decide]
      simpa using h
    rw [this]; rfl
  show Scalar.select (IntOp.cmpi .slt (v i) (broadcastInDim Cert.ReferenceIdeal.S1000000 ![] Cert.ReferenceIdeal.Facts₀.bcast_S_S1000000 (constantI Cert.ReferenceIdeal.S_ 32 0#32) i)) _ (v i) = v i
  rw [show broadcastInDim Cert.ReferenceIdeal.S1000000 ![] Cert.ReferenceIdeal.Facts₀.bcast_S_S1000000 (constantI Cert.ReferenceIdeal.S_ 32 0#32) i = 0#32 from rfl, hlt]
  exact ValueIdx.select_zero _ _

/-- A gathered element is an element of the table gathered from: real-valued if the table is. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- THE REFERENCE'S RESULT IS THE KERNEL'S, under the precondition, from memories agreeing on the arguments. -/
theorem result_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.ReferenceIdeal.Value.res_out0 (F := Ideal) m' c = Cert.KernelIdeal.HandValue.result m c := by
  obtain ⟨e0, e1, e2, e3, e4, e5, e6, e7, e8, e9⟩ := hagree c
  obtain ⟨hX, hC, hA, hj⟩ := Cert.PreFacts.decode _ _ _ _ _ _ _ _ _ _ (hpre c)
  rw [Cert.ReferenceIdeal.RefValue.ref_value m' c]
  funext _
  show (lossR (Cert.ReferenceIdeal.RefValue.xk m' c) (Cert.ReferenceIdeal.RefValue.xi m' c) (Cert.ReferenceIdeal.RefValue.ck m' c) (Cert.ReferenceIdeal.RefValue.ci m' c) (Cert.ReferenceIdeal.RefValue.ag m' c)
        (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
        (Cert.ReferenceIdeal.RefValue.wrapVec 128#32 (m' ((c.tc : Thread Cert.ReferenceIdeal.nD Cert.ReferenceIdeal.τ).loc Cert.ReferenceIdeal.main_arg5)))
        (m' ((c.tc : Thread Cert.ReferenceIdeal.nD Cert.ReferenceIdeal.τ).loc Cert.ReferenceIdeal.main_arg9)) + Cert.ReferenceIdeal.RefValue.normC m' c ix0) + Cert.ReferenceIdeal.RefValue.normA m' c ix0
      = (Cert.KernelIdeal.HandValue.kloss m c + Cert.KernelIdeal.Terms.normC m c ix0) + Cert.KernelIdeal.Terms.normA m c ix0
  have hxk : Cert.ReferenceIdeal.RefValue.xk m' c = Cert.KernelIdeal.Terms.xk m c := by
    dsimp only [Cert.ReferenceIdeal.RefValue.xk, Cert.KernelIdeal.Terms.xk]; rw [e0, e4]; rfl
  have hxi : Cert.ReferenceIdeal.RefValue.xi m' c = Cert.KernelIdeal.Terms.xi m c := by
    dsimp only [Cert.ReferenceIdeal.RefValue.xi, Cert.KernelIdeal.Terms.xi]; rw [e0, e3]; rfl
  have hck : Cert.ReferenceIdeal.RefValue.ck m' c = Cert.KernelIdeal.Terms.ck m c := by
    dsimp only [Cert.ReferenceIdeal.RefValue.ck, Cert.KernelIdeal.Terms.ck]; rw [e1, e4]; rfl
  have hci : Cert.ReferenceIdeal.RefValue.ci m' c = Cert.KernelIdeal.Terms.ci m c := by
    dsimp only [Cert.ReferenceIdeal.RefValue.ci, Cert.KernelIdeal.Terms.ci]; rw [e1, e3]; rfl
  have hag : Cert.ReferenceIdeal.RefValue.ag m' c = Cert.KernelIdeal.Terms.ag m c := by
    dsimp only [Cert.ReferenceIdeal.RefValue.ag, Cert.KernelIdeal.Terms.ag]; rw [e2, e6]; rfl
  have hnC : Cert.ReferenceIdeal.RefValue.normC m' c = Cert.KernelIdeal.Terms.normC m c := by
    dsimp only [Cert.ReferenceIdeal.RefValue.normC, Cert.KernelIdeal.Terms.normC]; rw [e1]
  have hnA : Cert.ReferenceIdeal.RefValue.normA m' c = Cert.KernelIdeal.Terms.normA m c := by
    dsimp only [Cert.ReferenceIdeal.RefValue.normA, Cert.KernelIdeal.Terms.normA]; rw [e2]
  rw [hxk, hxi, hck, hci, hag, hnC, hnA, e5, e7, e8, e9]
  refine congrArg (fun z : EReal => (z + Cert.KernelIdeal.Terms.normC m c ix0) + Cert.KernelIdeal.Terms.normA m c ix0) ?_
  unfold Cert.KernelIdeal.HandValue.kloss
  refine (lossK_eq_lossR _ _ _ _ _ _ _ _ _ _ ?_ ?_ ?_ ?_ ?_ ?_ ?_).symm
  · exact fun i => gather_real _ _ _ hX i
  · exact fun i => gather_real _ _ _ hX i
  · exact fun i => gather_real _ _ _ hC i
  · exact fun i => gather_real _ _ _ hC i
  · exact fun i => gather_real _ _ _ hA i
  · exact fun i => (hj i).1
  · exact fun i => congrArg BitVec.toInt (wrap_of_nonneg 128#32 _ i (hj i).1)

end Cert.Bridge

end
-- ==== Proof.lean ====
/-
  THE CERTIFICATE. The kernel computes, for 1,000,000 edges in 250 blocks of 4000, each edge's weighted safe norm of its
  masked row `(xk − xi) + (ck − ci) − δ · [column = j]`, accumulates the blocks' sums in a 1×1 buffer, and adds two norms on
  the host; the reference forms the row as `((xk + ck) − xi) − ci` with `−δ` scattered into column j, sums over all edges
  at once, and adds the same two norms. Under the precondition — finite float inputs and column words in [0, 128) — both
  are one function of the arguments over the extended reals: the rows agree by ring arithmetic on real numbers, and the
  sum over the edges may be grouped by blocks. The three frames are the generated frame certificates and the reference's
  generated run; the ideal pass rewrote nothing, so `preserves` is trivial.
-/
import proofs.«411161_j77043123355910_2_alg».proof.Defs
import proofs.«411161_j77043123355910_2_alg».proof.Proof.Gen.Kernel
import proofs.«411161_j77043123355910_2_alg».proof.Proof.Gen.Kernel.Frame
import proofs.«411161_j77043123355910_2_alg».proof.Proof.Gen.KernelIdeal
import proofs.«411161_j77043123355910_2_alg».proof.Proof.Gen.KernelIdeal.Frame
import proofs.«411161_j77043123355910_2_alg».proof.Proof.Gen.ReferenceIdeal
import proofs.«411161_j77043123355910_2_alg».proof.Proof.Gen.Pre_finite_inputs
import proofs.«411161_j77043123355910_2_alg».proof.Proof.Gen.ReferenceIdeal.Run
import proofs.«411161_j77043123355910_2_alg».proof.Proof.Gen.ReferenceIdeal.Read
import proofs.«411161_j77043123355910_2_alg».proof.Proof.KernelAcc
import proofs.«411161_j77043123355910_2_alg».proof.Proof.RefValue
import proofs.«411161_j77043123355910_2_alg».proof.Proof.Bridge
import Idealize.ShloMosaic.Adequacy
import Idealize.ShloMosaic.Init

noncomputable section

namespace Cert.Proof

open Idealize.ShloMosaic Idealize.SL.Sem

/-- The word-level kernel runs and keeps its arguments: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end, with one result: the edges' losses summed, plus the two norms. -/
theorem algebraic : Cert.algebraic_KernelIdeal_ReferenceIdeal := by
  intro m ρ m' ρ' hpre hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
